-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)) →
    ∃ (v0 : (c : Dev Cert.KernelIdeal.nD) → Buf (Elt Ideal) ((c.tc : Thread Cert.KernelIdeal.nD Cert.KernelIdeal.τ).loc Cert.KernelIdeal.main_v8_0)) (v1 : (c : Dev Cert.KernelIdeal.nD) → Buf (Elt Ideal) ((c.tc : Thread Cert.KernelIdeal.nD Cert.KernelIdeal.τ).loc Cert.KernelIdeal.main_v8_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v8_0) = v0 c
          ∧ r.2.mem ((c.tc : Thread Cert.KernelIdeal.nD Cert.KernelIdeal.τ).loc Cert.KernelIdeal.main_v8_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v51) = v0 c
          ∧ r.2.mem ((c.tc : Thread Cert.ReferenceIdeal.nD Cert.ReferenceIdeal.τ).loc Cert.ReferenceIdeal.main_v53) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16384x128 : Shape := ⟨2, ![16384, 128]⟩
abbrev S2x16384x512 : Shape := ⟨3, ![2, 16384, 512]⟩
abbrev S512x1152 : Shape := ⟨2, ![512, 1152]⟩
abbrev S512 : Shape := ⟨1, ![512]⟩
abbrev S512x128 : Shape := ⟨2, ![512, 128]⟩
abbrev S2x2x512x512 : Shape := ⟨4, ![2, 2, 512, 512]⟩
abbrev S_ : Shape := ⟨0, ![]⟩

class Facts : Prop where
  bcast_S_S16384x128 : S_.BroadcastsInDim S16384x128 (![] : Fin 0 → Fin S16384x128.rank)
  reducesTo_S16384x128_S_d0_1 : S16384x128.ReducesTo [0, 1] S_
  h_S_ : 0 < S_.numel
  bcast_S_S2x16384x512 : S_.BroadcastsInDim S2x16384x512 (![] : Fin 0 → Fin S2x16384x512.rank)
  reducesTo_S2x16384x512_S_d0_1_2 : S2x16384x512.ReducesTo [0, 1, 2] S_
  bcast_S_S512x1152 : S_.BroadcastsInDim S512x1152 (![] : Fin 0 → Fin S512x1152.rank)
  reducesTo_S512x1152_S_d0_1 : S512x1152.ReducesTo [0, 1] S_
  bcast_S_S512 : S_.BroadcastsInDim S512 (![] : Fin 0 → Fin S512.rank)
  reducesTo_S512_S_d0 : S512.ReducesTo [0] S_
  bcast_S_S512x128 : S_.BroadcastsInDim S512x128 (![] : Fin 0 → Fin S512x128.rank)
  reducesTo_S512x128_S_d0_1 : S512x128.ReducesTo [0, 1] S_
  bcast_S_S2x2x512x512 : S_.BroadcastsInDim S2x2x512x512 (![] : Fin 0 → Fin S2x2x512x512.rank)
  reducesTo_S2x2x512x512_S_d0_1_2_3 : S2x2x512x512.ReducesTo [0, 1, 2, 3] S_

variable [Facts]

def fn_part3 {F : FTy → Type} [FloatOps F] (main_arg11 : FVec F S512 .f32) (main_v48 : IVec S_ 1) (main_v49 : FVec F S2x2x512x512 .f32) (main_v50 : FVec F S2x2x512x512 .f32) : IVec S_ 1 :=
  let main_v51 : IVec S2x2x512x512 1 := cmpf .olt main_v49 main_v50
  let main_c_19 : IVec S_ 1 := constantI S_ 1 1#1
  let main_v52 : IVec S_ 1 := (fun x v => Host.reduce IntOp.andi x v reducesTo_S2x2x512x512_S_d0_1_2_3 h_S_) main_v51 main_c_19
  let main_v53 : IVec S_ 1 := andi main_v48 main_v52
  let main_v54 : FVec F S512 .f32 := Host.absf main_arg11
  let main_cst_20 : FVec F S_ .f32 := constant S_ .f32 0x7F800000#32
  let main_v55 : FVec F S512 .f32 := broadcastInDim S512 ![] bcast_S_S512 main_cst_20
  let main_v56 : IVec S512 1 := cmpf .olt main_v54 main_v55
  let main_c_21 : IVec S_ 1 := constantI S_ 1 1#1
  let main_v57 : IVec S_ 1 := (fun x v => Host.reduce IntOp.andi x v reducesTo_S512_S_d0 h_S_) main_v56 main_c_21
  let main_v58 : IVec S_ 1 := andi main_v53 main_v57
  main_v58

def fn_part2 {F : FTy → Type} [FloatOps F] (main_arg7 : FVec F S512x1152 .f32) (main_arg8 : FVec F S512 .f32) (main_arg9 : FVec F S512x128 .f32) (main_arg10 : FVec F S2x2x512x512 .f32) (main_arg11 : FVec F S512 .f32) (main_v33 : IVec S_ 1) : IVec S_ 1 :=
  let main_v34 : FVec F S512x1152 .f32 := Host.absf main_arg7
  let main_cst_12 : FVec F S_ .f32 := constant S_ .f32 0x7F800000#32
  let main_v35 : FVec F S512x1152 .f32 := broadcastInDim S512x1152 ![] bcast_S_S512x1152 main_cst_12
  let main_v36 : IVec S512x1152 1 := cmpf .olt main_v34 main_v35
  let main_c_13 : IVec S_ 1 := constantI S_ 1 1#1
  let main_v37 : IVec S_ 1 := (fun x v => Host.reduce IntOp.andi x v reducesTo_S512x1152_S_d0_1 h_S_) main_v36 main_c_13
  let main_v38 : IVec S_ 1 := andi main_v33 main_v37
  let main_v39 : FVec F S512 .f32 := Host.absf main_arg8
  let main_cst_14 : FVec F S_ .f32 := constant S_ .f32 0x7F800000#32
  let main_v40 : FVec F S512 .f32 := broadcastInDim S512 ![] bcast_S_S512 main_cst_14
  let main_v41 : IVec S512 1 := cmpf .olt main_v39 main_v40
  let main_c_15 : IVec S_ 1 := constantI S_ 1 1#1
  let main_v42 : IVec S_ 1 := (fun x v => Host.reduce IntOp.andi x v reducesTo_S512_S_d0 h_S_) main_v41 main_c_15
  let main_v43 : IVec S_ 1 := andi main_v38 main_v42
  let main_v44 : FVec F S512x128 .f32 := Host.absf main_arg9
  let main_cst_16 : FVec F S_ .f32 := constant S_ .f32 0x7F800000#32
  let main_v45 : FVec F S512x128 .f32 := broadcastInDim S512x128 ![] bcast_S_S512x128 main_cst_16
  let main_v46 : IVec S512x128 1 := cmpf .olt main_v44 main_v45
  let main_c_17 : IVec S_ 1 := constantI S_ 1 1#1
  let main_v47 : IVec S_ 1 := (fun x v => Host.reduce IntOp.andi x v reducesTo_S512x128_S_d0_1 h_S_) main_v46 main_c_17
  let main_v48 : IVec S_ 1 := andi main_v43 main_v47
  let main_v49 : FVec F S2x2x512x512 .f32 := Host.absf main_arg10
  let main_cst_18 : FVec F S_ .f32 := constant S_ .f32 0x7F800000#32
  let main_v50 : FVec F S2x2x512x512 .f32 := broadcastInDim S2x2x512x512 ![] bcast_S_S2x2x512x512 main_cst_18
  fn_part3 (F := F) main_arg11 main_v48 main_v49 main_v50

def fn_part1 {F : FTy → Type} [FloatOps F] (main_arg4 : FVec F S512 .f32) (main_arg5 : FVec F S512x1152 .f32) (main_arg6 : FVec F S512 .f32) (main_arg7 : FVec F S512x1152 .f32) (main_arg8 : FVec F S512 .f32) (main_arg9 : FVec F S512x128 .f32) (main_arg10 : FVec F S2x2x512x512 .f32) (main_arg11 : FVec F S512 .f32) (main_v13 : IVec S_ 1) (main_v16 : IVec S512x1152 1) : IVec S_ 1 :=
  let main_c_5 : IVec S_ 1 := constantI S_ 1 1#1
  let main_v17 : IVec S_ 1 := (fun x v => Host.reduce IntOp.andi x v reducesTo_S512x1152_S_d0_1 h_S_) main_v16 main_c_5
  let main_v18 : IVec S_ 1 := andi main_v13 main_v17
  let main_v19 : FVec F S512 .f32 := Host.absf main_arg4
  let main_cst_6 : FVec F S_ .f32 := constant S_ .f32 0x7F800000#32
  let main_v20 : FVec F S512 .f32 := broadcastInDim S512 ![] bcast_S_S512 main_cst_6
  let main_v21 : IVec S512 1 := cmpf .olt main_v19 main_v20
  let main_c_7 : IVec S_ 1 := constantI S_ 1 1#1
  let main_v22 : IVec S_ 1 := (fun x v => Host.reduce IntOp.andi x v reducesTo_S512_S_d0 h_S_) main_v21 main_c_7
  let main_v23 : IVec S_ 1 := andi main_v18 main_v22
  let main_v24 : FVec F S512x1152 .f32 := Host.absf main_arg5
  let main_cst_8 : FVec F S_ .f32 := constant S_ .f32 0x7F800000#32
  let main_v25 : FVec F S512x1152 .f32 := broadcastInDim S512x1152 ![] bcast_S_S512x1152 main_cst_8
  let main_v26 : IVec S512x1152 1 := cmpf .olt main_v24 main_v25
  let main_c_9 : IVec S_ 1 := constantI S_ 1 1#1
  let main_v27 : IVec S_ 1 := (fun x v => Host.reduce IntOp.andi x v reducesTo_S512x1152_S_d0_1 h_S_) main_v26 main_c_9
  let main_v28 : IVec S_ 1 := andi main_v23 main_v27
  let main_v29 : FVec F S512 .f32 := Host.absf main_arg6
  let main_cst_10 : FVec F S_ .f32 := constant S_ .f32 0x7F800000#32
  let main_v30 : FVec F S512 .f32 := broadcastInDim S512 ![] bcast_S_S512 main_cst_10
  let main_v31 : IVec S512 1 := cmpf .olt main_v29 main_v30
  let main_c_11 : IVec S_ 1 := constantI S_ 1 1#1
  let main_v32 : IVec S_ 1 := (fun x v => Host.reduce IntOp.andi x v reducesTo_S512_S_d0 h_S_) main_v31 main_c_11
  let main_v33 : IVec S_ 1 := andi main_v28 main_v32
  fn_part2 (F := F) main_arg7 main_arg8 main_arg9 main_arg10 main_arg11 main_v33

def fn {F : FTy → Type} [FloatOps F] (main_arg0 : FVec F S16384x128 .f32) (main_arg1 : FVec F S2x16384x512 .f32) (main_arg2 : FVec F S2x16384x512 .f32) (main_arg3 : FVec F S512x1152 .f32) (main_arg4 : FVec F S512 .f32) (main_arg5 : FVec F S512x1152 .f32) (main_arg6 : FVec F S512 .f32) (main_arg7 : FVec F S512x1152 .f32) (main_arg8 : FVec F S512 .f32) (main_arg9 : FVec F S512x128 .f32) (main_arg10 : FVec F S2x2x512x512 .f32) (main_arg11 : FVec F S512 .f32) : IVec S_ 1 :=
  let main_v0 : FVec F S16384x128 .f32 := Host.absf main_arg0
  let main_cst : FVec F S_ .f32 := constant S_ .f32 0x7F800000#32
  let main_v1 : FVec F S16384x128 .f32 := broadcastInDim S16384x128 ![] bcast_S_S16384x128 main_cst
  let main_v2 : IVec S16384x128 1 := cmpf .olt main_v0 main_v1
  let main_c : IVec S_ 1 := constantI S_ 1 1#1
  let main_v3 : IVec S_ 1 := (fun x v => Host.reduce IntOp.andi x v reducesTo_S16384x128_S_d0_1 h_S_) main_v2 main_c
  let main_v4 : FVec F S2x16384x512 .f32 := Host.absf main_arg1
  let main_cst_0 : FVec F S_ .f32 := constant S_ .f32 0x7F800000#32
  let main_v5 : FVec F S2x16384x512 .f32 := broadcastInDim S2x16384x512 ![] bcast_S_S2x16384x512 main_cst_0
  let main_v6 : IVec S2x16384x512 1 := cmpf .olt main_v4 main_v5
  let main_c_1 : IVec S_ 1 := constantI S_ 1 1#1
  let main_v7 : IVec S_ 1 := (fun x v => Host.reduce IntOp.andi x v reducesTo_S2x16384x512_S_d0_1_2 h_S_) main_v6 main_c_1
  let main_v8 : IVec S_ 1 := andi main_v3 main_v7
  let main_v9 : FVec F S2x16384x512 .f32 := Host.absf main_arg2
  let main_cst_2 : FVec F S_ .f32 := constant S_ .f32 0x7F800000#32
  let main_v10 : FVec F S2x16384x512 .f32 := broadcastInDim S2x16384x512 ![] bcast_S_S2x16384x512 main_cst_2
  let main_v11 : IVec S2x16384x512 1 := cmpf .olt main_v9 main_v10
  let main_c_3 : IVec S_ 1 := constantI S_ 1 1#1
  let main_v12 : IVec S_ 1 := (fun x v => Host.reduce IntOp.andi x v reducesTo_S2x16384x512_S_d0_1_2 h_S_) main_v11 main_c_3
  let main_v13 : IVec S_ 1 := andi main_v8 main_v12
  let main_v14 : FVec F S512x1152 .f32 := Host.absf main_arg3
  let main_cst_4 : FVec F S_ .f32 := constant S_ .f32 0x7F800000#32
  let main_v15 : FVec F S512x1152 .f32 := broadcastInDim S512x1152 ![] bcast_S_S512x1152 main_cst_4
  let main_v16 : IVec S512x1152 1 := cmpf .olt main_v14 main_v15
  fn_part1 (F := F) main_arg4 main_arg5 main_arg6 main_arg7 main_arg8 main_arg9 main_arg10 main_arg11 main_v13 main_v16
-- ==== Kernel.lean ====
abbrev S16384x128 : Shape := ⟨2, ![16384, 128]⟩
abbrev S2x16384x512 : Shape := ⟨3, ![2, 16384, 512]⟩
abbrev S512x1152 : Shape := ⟨2, ![512, 1152]⟩
abbrev S512 : Shape := ⟨1, ![512]⟩
abbrev S512x128 : Shape := ⟨2, ![512, 128]⟩
abbrev S2x2x512x512 : Shape := ⟨4, ![2, 2, 512, 512]⟩
abbrev S1152x512 : Shape := ⟨2, ![1152, 512]⟩
abbrev S2x512x128 : Shape := ⟨3, ![2, 512, 128]⟩
abbrev S2x512x2x512 : Shape := ⟨4, ![2, 512, 2, 512]⟩
abbrev S2x512x1024 : Shape := ⟨3, ![2, 512, 1024]⟩
abbrev S2x512x1152 : Shape := ⟨3, ![2, 512, 1152]⟩
abbrev S2x1152x512 : Shape := ⟨3, ![2, 1152, 512]⟩
abbrev S16384x512 : Shape := ⟨2, ![16384, 512]⟩
abbrev S1024x128 : Shape := ⟨2, ![1024, 128]⟩
abbrev S2x1024x512 : Shape := ⟨3, ![2, 1024, 512]⟩
abbrev S1024x512 : Shape := ⟨2, ![1024, 512]⟩
abbrev S1x1024x512 : Shape := ⟨3, ![1, 1024, 512]⟩
abbrev S1024x1152 : Shape := ⟨2, ![1024, 1152]⟩
abbrev S1x512 : Shape := ⟨2, ![1, 512]⟩
abbrev S1x1152x512 : Shape := ⟨3, ![1, 1152, 512]⟩

abbrev nBuf : Space → Nat
  | .hbm => 22
  | .vmem => 18
  | .smem => 0
  | _ => 0

abbrev bufTy : (tb : Table) → Fin (tcTables nBuf tb) → BufTy
  | .hbm, ⟨0, _⟩ => ⟨S16384x128, .f32⟩
  | .hbm, ⟨1, _⟩ => ⟨S2x16384x512, .f32⟩
  | .hbm, ⟨2, _⟩ => ⟨S2x16384x512, .f32⟩
  | .hbm, ⟨3, _⟩ => ⟨S512x1152, .f32⟩
  | .hbm, ⟨4, _⟩ => ⟨S512, .f32⟩
  | .hbm, ⟨5, _⟩ => ⟨S512x1152, .f32⟩
  | .hbm, ⟨6, _⟩ => ⟨S512, .f32⟩
  | .hbm, ⟨7, _⟩ => ⟨S512x1152, .f32⟩
  | .hbm, ⟨8, _⟩ => ⟨S512, .f32⟩
  | .hbm, ⟨9, _⟩ => ⟨S512x128, .f32⟩
  | .hbm, ⟨10, _⟩ => ⟨S2x2x512x512, .f32⟩
  | .hbm, ⟨11, _⟩ => ⟨S512, .f32⟩
  | .hbm, ⟨12, _⟩ => ⟨S1152x512, .f32⟩
  | .hbm, ⟨13, _⟩ => ⟨S1152x512, .f32⟩
  | .hbm, ⟨14, _⟩ => ⟨S1152x512, .f32⟩
  | .hbm, ⟨15, _⟩ => ⟨S2x512x128, .f32⟩
  | .hbm, ⟨16, _⟩ => ⟨S2x512x2x512, .f32⟩
  | .hbm, ⟨17, _⟩ => ⟨S2x512x1024, .f32⟩
  | .hbm, ⟨18, _⟩ => ⟨S2x512x1152, .f32⟩
  | .hbm, ⟨19, _⟩ => ⟨S2x1152x512, .f32⟩
  | .hbm, ⟨20, _⟩ => ⟨S16384x512, .f32⟩
  | .hbm, ⟨21, _⟩ => ⟨S16384x512, .f32⟩
  | .local _ .vmem, ⟨0, _⟩ => ⟨S1024x128, .f32⟩
  | .local _ .vmem, ⟨1, _⟩ => ⟨S1024x128, .f32⟩
  | .local _ .vmem, ⟨2, _⟩ => ⟨S2x1024x512, .f32⟩
  | .local _ .vmem, ⟨3, _⟩ => ⟨S2x1024x512, .f32⟩
  | .local _ .vmem, ⟨4, _⟩ => ⟨S2x1024x512, .f32⟩
  | .local _ .vmem, ⟨5, _⟩ => ⟨S2x1024x512, .f32⟩
  | .local _ .vmem, ⟨6, _⟩ => ⟨S1152x512, .f32⟩
  | .local _ .vmem, ⟨7, _⟩ => ⟨S1152x512, .f32⟩
  | .local _ .vmem, ⟨8, _⟩ => ⟨S1152x512, .f32⟩
  | .local _ .vmem, ⟨9, _⟩ => ⟨S2x1152x512, .f32⟩
  | .local _ .vmem, ⟨10, _⟩ => ⟨S512, .f32⟩
  | .local _ .vmem, ⟨11, _⟩ => ⟨S512, .f32⟩
  | .local _ .vmem, ⟨12, _⟩ => ⟨S512, .f32⟩
  | .local _ .vmem, ⟨13, _⟩ => ⟨S512, .f32⟩
  | .local _ .vmem, ⟨14, _⟩ => ⟨S1024x512, .f32⟩
  | .local _ .vmem, ⟨15, _⟩ => ⟨S1024x512, .f32⟩
  | .local _ .vmem, ⟨16, _⟩ => ⟨S1024x512, .f32⟩
  | .local _ .vmem, ⟨17, _⟩ => ⟨S1024x512, .f32⟩
  | _, _ => ⟨S16384x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8_0 : Ref sig .tc := ⟨.hbm, 20, rfl⟩
abbrev main_v8_1 : Ref sig .tc := ⟨.hbm, 21, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg10_0 : Ref sig .tc := ⟨.vmem, 13, rfl⟩
abbrev cc0_stg11_0 : Ref sig .tc := ⟨.vmem, 14, rfl⟩
abbrev cc0_stg11_1 : Ref sig .tc := ⟨.vmem, 15, rfl⟩
abbrev cc0_stg12_0 : Ref sig .tc := ⟨.vmem, 16, rfl⟩
abbrev cc0_stg12_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem10_0 : DmaSem sig := 13
abbrev cc0_sem11_0 : DmaSem sig := 14
abbrev cc0_sem11_1 : DmaSem sig := 15
abbrev cc0_sem12_0 : DmaSem sig := 16
abbrev cc0_sem12_1 : DmaSem sig := 17

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_7 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_8 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_9 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_10 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2x1024x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S2x1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1152x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1152x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1152x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S2x1152x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S512 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S512 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S512 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S512 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 2 → Memref sig .tc .vmem S1024x512 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S1024x512 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

class Facts₀ : Prop where
  transposes_S512x1152_S1152x512_1_0 : S512x1152.Transposes [1, 0] S1152x512
  bcast_S512x128_S2x512x128_1_2 : S512x128.BroadcastsInDim S2x512x128 (![1, 2] : Fin 2 → Fin S2x512x128.rank)
  transposes_S2x2x512x512_S2x512x2x512_0_2_1_3 : S2x2x512x512.Transposes [0, 2, 1, 3] S2x512x2x512
  shapeCasts_S2x512x2x512_S2x512x1024 : S2x512x2x512.ShapeCasts S2x512x1024
  concatenates_S2x512x128_S2x512x1024_S2x512x1152_d2 : Shape.Concatenates [S2x512x128, S2x512x1024] S2x512x1152 2
  transposes_S2x512x1152_S2x1152x512_0_2_1 : S2x512x1152.Transposes [0, 2, 1] S2x1152x512
  inb_S1024x128_S1024x128_0_0 : ∀ a, (![0, 0] : Fin 2 → Nat) a + S1024x128.size a ≤ S1024x128.size a
  h_S1024x128 : 0 < S1024x128.numel
  inb_S2x1024x512_S1x1024x512_0_0_0 : ∀ a, (![0, 0, 0] : Fin 3 → Nat) a + S1x1024x512.size a ≤ S2x1024x512.size a
  h_S1x1024x512 : 0 < S1x1024x512.numel
  shapeCasts_S1x1024x512_S1024x512 : S1x1024x512.ShapeCasts S1024x512
  inb_S2x1024x512_S1x1024x512_1_0_0 : ∀ a, (![1, 0, 0] : Fin 3 → Nat) a + S1x1024x512.size a ≤ S2x1024x512.size a
  concatenates_S1024x128_S1024x512_S1024x512_S1024x1152_d1 : Shape.Concatenates [S1024x128, S1024x512, S1024x512] S1024x1152 1
  inb_S1152x512_S1152x512_0_0 : ∀ a, (![0, 0] : Fin 2 → Nat) a + S1152x512.size a ≤ S1152x512.size a
  h_S1152x512 : 0 < S1152x512.numel
  shapeCasts_S1152x512_S1152x512 : S1152x512.ShapeCasts S1152x512
  inb_S512_S512_0 : ∀ a, (![0] : Fin 1 → Nat) a + S512.size a ≤ S512.size a
  h_S512 : 0 < S512.numel
  shapeCasts_S512_S1x512 : S512.ShapeCasts S1x512
  broadcasts_S1x512_S1024x512 : S1x512.Broadcasts S1024x512
  inb_S2x1152x512_S1x1152x512_0_0_0 : ∀ a, (![0, 0, 0] : Fin 3 → Nat) a + S1x1152x512.size a ≤ S2x1152x512.size a
  h_S1x1152x512 : 0 < S1x1152x512.numel
  shapeCasts_S1x1152x512_S1152x512 : S1x1152x512.ShapeCasts S1152x512
  inb_S2x1152x512_S1x1152x512_1_0_0 : ∀ a, (![1, 0, 0] : Fin 3 → Nat) a + S1x1152x512.size a ≤ S2x1152x512.size a
  inb_S1024x512_S1024x512_0_0 : ∀ a, (![0, 0] : Fin 2 → Nat) a + S1024x512.size a ≤ S1024x512.size a
  h_S1024x512 : 0 < S1024x512.numel
  dot_S1024x1152_S1152x512_S1024x512_1_0_0_1_n_n_wf : DotDims.WF S1024x1152 S1152x512 S1024x512 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x128.size a ≤ S16384x128.size a
  hwx0_0 : ∀ i : grid0.Coords, EltTy.bits .f32 = 32 ∨ (Rect.block (s := S16384x128) S1024x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2x1024x512.size a ≤ S2x16384x512.size a
  hwx0_1 : ∀ i : grid0.Coords, EltTy.bits .f32 = 32 ∨ (Rect.block (s := S2x16384x512) S2x1024x512.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2x1024x512.size a ≤ S2x16384x512.size a
  hwx0_2 : ∀ i : grid0.Coords, EltTy.bits .f32 = 32 ∨ (Rect.block (s := S2x16384x512) S2x1024x512.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1152x512.size a ≤ S1152x512.size a
  hwx0_3 : ∀ i : grid0.Coords, EltTy.bits .f32 = 32 ∨ (Rect.block (s := S1152x512) S1152x512.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1152x512.size a ≤ S1152x512.size a
  hwx0_4 : ∀ i : grid0.Coords, EltTy.bits .f32 = 32 ∨ (Rect.block (s := S1152x512) S1152x512.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1152x512.size a ≤ S1152x512.size a
  hwx0_5 : ∀ i : grid0.Coords, EltTy.bits .f32 = 32 ∨ (Rect.block (s := S1152x512) S1152x512.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S2x1152x512.size a ≤ S2x1152x512.size a
  hwx0_6 : ∀ i : grid0.Coords, EltTy.bits .f32 = 32 ∨ (Rect.block (s := S2x1152x512) S2x1152x512.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S512.size a ≤ S512.size a
  hwx0_7 : ∀ i : grid0.Coords, EltTy.bits .f32 = 32 ∨ (Rect.block (s := S512) S512.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S512.size a ≤ S512.size a
  hwx0_8 : ∀ i : grid0.Coords, EltTy.bits .f32 = 32 ∨ (Rect.block (s := S512) S512.size (cc0_transform_8 i) (hinb0_8 i)).WholeWords (EltTy.packing .f32)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S512.size a ≤ S512.size a
  hwx0_9 : ∀ i : grid0.Coords, EltTy.bits .f32 = 32 ∨ (Rect.block (s := S512) S512.size (cc0_transform_9 i) (hinb0_9 i)).WholeWords (EltTy.packing .f32)
  hstage0_10 : ∀ j, (stage0_10 j).IsWhole
  nbuf0_10 : grid0.bufCount reads0_10 true = 1
  hreads0_10 : ∀ i i' : grid0.Coords, (∀ a, reads0_10 a = true → i a = i' a) → cc0_transform_10 i = cc0_transform_10 i'
  hinb0_10 : ∀ (i : grid0.Coords) a, (cc0_transform_10 i a + 1) * S512.size a ≤ S512.size a
  hwx0_10 : ∀ i : grid0.Coords, EltTy.bits .f32 = 32 ∨ (Rect.block (s := S512) S512.size (cc0_transform_10 i) (hinb0_10 i)).WholeWords (EltTy.packing .f32)
  hstage0_11 : ∀ j, (stage0_11 j).IsWhole
  nbuf0_11 : grid0.bufCount reads0_11 false = 2
  hreads0_11 : ∀ i i' : grid0.Coords, (∀ a, reads0_11 a = true → i a = i' a) → cc0_transform_11 i = cc0_transform_11 i'
  hinb0_11 : ∀ (i : grid0.Coords) a, (cc0_transform_11 i a + 1) * S1024x512.size a ≤ S16384x512.size a
  hwx0_11 : ∀ i : grid0.Coords, EltTy.bits .f32 = 32 ∨ (Rect.block (s := S16384x512) S1024x512.size (cc0_transform_11 i) (hinb0_11 i)).WholeWords (EltTy.packing .f32)
  hstage0_12 : ∀ j, (stage0_12 j).IsWhole
  nbuf0_12 : grid0.bufCount reads0_12 false = 2
  hreads0_12 : ∀ i i' : grid0.Coords, (∀ a, reads0_12 a = true → i a = i' a) → cc0_transform_12 i = cc0_transform_12 i'
  hinb0_12 : ∀ (i : grid0.Coords) a, (cc0_transform_12 i a + 1) * S1024x512.size a ≤ S16384x512.size a
  hwx0_12 : ∀ i : grid0.Coords, EltTy.bits .f32 = 32 ∨ (Rect.block (s := S16384x512) S1024x512.size (cc0_transform_12 i) (hinb0_12 i)).WholeWords (EltTy.packing .f32)

variable [Facts₀]

def dot_S1024x1152_S1152x512_S1024x512_1_0_0_1_n_n : DotDims S1024x1152 S1152x512 S1024x512 where
  lhsContracting := [1]
  rhsContracting := [0]
  lhsNonContracting := [0]
  rhsNonContracting := [1]
  lhsBatch := []
  rhsBatch := []
  wf := dot_S1024x1152_S1152x512_S1024x512_1_0_0_1_n_n_wf

abbrev win0_0 : Pipeline.Window sig grid0 :=
  Pipeline.Window.ofSpec (Memref.whole main_arg0) S1024x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S2x1024x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S2x1024x512.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v0) S1152x512.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v1) S1152x512.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v2) S1152x512.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v7) S2x1152x512.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_arg4) S512.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_arg6) S512.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_arg8) S512.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_arg11) S512.size cc0_transform_10 reads0_10 false true 1 stage0_10 sem0_10
    hrank0 hreads0_10 hinb0_10 nbuf0_10 (Memref.isWhole_whole _) hwx0_10 hstage0_10

abbrev win0_11 : Pipeline.Window sig grid0 :=
  Pipeline.Window.ofSpec (Memref.whole main_v8_0) S1024x512.size cc0_transform_11 reads0_11 true false 2 stage0_11 sem0_11
    hrank0 hreads0_11 hinb0_11 nbuf0_11 (Memref.isWhole_whole _) hwx0_11 hstage0_11

abbrev win0_12 : Pipeline.Window sig grid0 :=
  Pipeline.Window.ofSpec (Memref.whole main_v8_1) S1024x512.size cc0_transform_12 reads0_12 true false 2 stage0_12 sem0_12
    hrank0 hreads0_12 hinb0_12 nbuf0_12 (Memref.isWhole_whole _) hwx0_12 hstage0_12

abbrev win0 : Fin 13 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | 12 => win0_12 | ⟨_ + 13, h⟩ => absurd h (Nat.not_lt.2 (Nat.le_add_left _ _))
abbrev spec0 : Fin 13 → Pipeline.WinSpec sig grid0.rank := fun w => (win0 w).toWinSpec

class Facts : Prop extends Facts₀ where

variable [Facts]
-- ==== ReferenceIdeal.lean ====
abbrev S16384x128 : Shape := ⟨2, ![16384, 128]⟩
abbrev S2x16384x512 : Shape := ⟨3, ![2, 16384, 512]⟩
abbrev S512x1152 : Shape := ⟨2, ![512, 1152]⟩
abbrev S512 : Shape := ⟨1, ![512]⟩
abbrev S512x128 : Shape := ⟨2, ![512, 128]⟩
abbrev S2x2x512x512 : Shape := ⟨4, ![2, 2, 512, 512]⟩
abbrev S16384x2x512 : Shape := ⟨3, ![16384, 2, 512]⟩
abbrev S16384x1024 : Shape := ⟨2, ![16384, 1024]⟩
abbrev S16384x1152 : Shape := ⟨2, ![16384, 1152]⟩
abbrev S1152x512 : Shape := ⟨2, ![1152, 512]⟩
abbrev S16384x512 : Shape := ⟨2, ![16384, 512]⟩
abbrev S1x512 : Shape := ⟨2, ![1, 512]⟩
abbrev S_ : Shape := ⟨0, ![]⟩
abbrev S2x512x128 : Shape := ⟨3, ![2, 512, 128]⟩
abbrev S2x512x2x512 : Shape := ⟨4, ![2, 512, 2, 512]⟩
abbrev S2x512x1024 : Shape := ⟨3, ![2, 512, 1024]⟩
abbrev S2x512x1152 : Shape := ⟨3, ![2, 512, 1152]⟩

abbrev nBuf : Space → Nat
  | .hbm => 74
  | .vmem => 0
  | .smem => 0
  | _ => 0

abbrev bufTy : (tb : Table) → Fin (tcTables nBuf tb) → BufTy
  | .hbm, ⟨0, _⟩ => ⟨S16384x128, .f32⟩
  | .hbm, ⟨1, _⟩ => ⟨S2x16384x512, .f32⟩
  | .hbm, ⟨2, _⟩ => ⟨S2x16384x512, .f32⟩
  | .hbm, ⟨3, _⟩ => ⟨S512x1152, .f32⟩
  | .hbm, ⟨4, _⟩ => ⟨S512, .f32⟩
  | .hbm, ⟨5, _⟩ => ⟨S512x1152, .f32⟩
  | .hbm, ⟨6, _⟩ => ⟨S512, .f32⟩
  | .hbm, ⟨7, _⟩ => ⟨S512x1152, .f32⟩
  | .hbm, ⟨8, _⟩ => ⟨S512, .f32⟩
  | .hbm, ⟨9, _⟩ => ⟨S512x128, .f32⟩
  | .hbm, ⟨10, _⟩ => ⟨S2x2x512x512, .f32⟩
  | .hbm, ⟨11, _⟩ => ⟨S512, .f32⟩
  | .hbm, ⟨12, _⟩ => ⟨S16384x2x512, .f32⟩
  | .hbm, ⟨13, _⟩ => ⟨S16384x1024, .f32⟩
  | .hbm, ⟨14, _⟩ => ⟨S16384x1152, .f32⟩
  | .hbm, ⟨15, _⟩ => ⟨S1152x512, .f32⟩
  | .hbm, ⟨16, _⟩ => ⟨S16384x512, .f32⟩
  | .hbm, ⟨17, _⟩ => ⟨S1x512, .f32⟩
  | .hbm, ⟨18, _⟩ => ⟨S16384x512, .f32⟩
  | .hbm, ⟨19, _⟩ => ⟨S16384x512, .f32⟩
  | .hbm, ⟨20, _⟩ => ⟨S16384x512, .f32⟩
  | .hbm, ⟨21, _⟩ => ⟨S16384x512, .f32⟩
  | .hbm, ⟨22, _⟩ => ⟨S_, .f32⟩
  | .hbm, ⟨23, _⟩ => ⟨S16384x512, .f32⟩
  | .hbm, ⟨24, _⟩ => ⟨S16384x512, .f32⟩
  | .hbm, ⟨25, _⟩ => ⟨S_, .f32⟩
  | .hbm, ⟨26, _⟩ => ⟨S16384x512, .f32⟩
  | .hbm, ⟨27, _⟩ => ⟨S16384x512, .f32⟩
  | .hbm, ⟨28, _⟩ => ⟨S1152x512, .f32⟩
  | .hbm, ⟨29, _⟩ => ⟨S16384x512, .f32⟩
  | .hbm, ⟨30, _⟩ => ⟨S1x512, .f32⟩
  | .hbm, ⟨31, _⟩ => ⟨S16384x512, .f32⟩
  | .hbm, ⟨32, _⟩ => ⟨S16384x512, .f32⟩
  | .hbm, ⟨33, _⟩ => ⟨S16384x512, .f32⟩
  | .hbm, ⟨34, _⟩ => ⟨S16384x512, .f32⟩
  | .hbm, ⟨35, _⟩ => ⟨S_, .f32⟩
  | .hbm, ⟨36, _⟩ => ⟨S16384x512, .f32⟩
  | .hbm, ⟨37, _⟩ => ⟨S16384x512, .f32⟩
  | .hbm, ⟨38, _⟩ => ⟨S_, .f32⟩
  | .hbm, ⟨39, _⟩ => ⟨S16384x512, .f32⟩
  | .hbm, ⟨40, _⟩ => ⟨S16384x512, .f32⟩
  | .hbm, ⟨41, _⟩ => ⟨S1152x512, .f32⟩
  | .hbm, ⟨42, _⟩ => ⟨S16384x512, .f32⟩
  | .hbm, ⟨43, _⟩ => ⟨S1x512, .f32⟩
  | .hbm, ⟨44, _⟩ => ⟨S16384x512, .f32⟩
  | .hbm, ⟨45, _⟩ => ⟨S16384x512, .f32⟩
  | .hbm, ⟨46, _⟩ => ⟨S16384x512, .f32⟩
  | .hbm, ⟨47, _⟩ => ⟨S2x512x128, .f32⟩
  | .hbm, ⟨48, _⟩ => ⟨S2x512x2x512, .f32⟩
  | .hbm, ⟨49, _⟩ => ⟨S2x512x1024, .f32⟩
  | .hbm, ⟨50, _⟩ => ⟨S2x512x1152, .f32⟩
  | .hbm, ⟨51, _⟩ => ⟨S16384x2x512, .f32⟩
  | .hbm, ⟨52, _⟩ => ⟨S2x16384x512, .f32⟩
  | .hbm, ⟨53, _⟩ => ⟨S2x16384x512, .f32⟩
  | .hbm, ⟨54, _⟩ => ⟨S2x16384x512, .f32⟩
  | .hbm, ⟨55, _⟩ => ⟨S_, .f32⟩
  | .hbm, ⟨56, _⟩ => ⟨S2x16384x512, .f32⟩
  | .hbm, ⟨57, _⟩ => ⟨S2x16384x512, .f32⟩
  | .hbm, ⟨58, _⟩ => ⟨S_, .f32⟩
  | .hbm, ⟨59, _⟩ => ⟨S2x16384x512, .f32⟩
  | .hbm, ⟨60, _⟩ => ⟨S2x16384x512, .f32⟩
  | .hbm, ⟨61, _⟩ => ⟨S2x16384x512, .f32⟩
  | .hbm, ⟨62, _⟩ => ⟨S_, .f32⟩
  | .hbm, ⟨63, _⟩ => ⟨S16384x512, .f32⟩
  | .hbm, ⟨64, _⟩ => ⟨S_, .f32⟩
  | .hbm, ⟨65, _⟩ => ⟨S16384x512, .f32⟩
  | .hbm, ⟨66, _⟩ => ⟨S1x512, .f32⟩
  | .hbm, ⟨67, _⟩ => ⟨S16384x512, .f32⟩
  | .hbm, ⟨68, _⟩ => ⟨S16384x512, .f32⟩
  | .hbm, ⟨69, _⟩ => ⟨S16384x512, .f32⟩
  | .hbm, ⟨70, _⟩ => ⟨S16384x512, .f32⟩
  | .hbm, ⟨71, _⟩ => ⟨S16384x512, .f32⟩
  | .hbm, ⟨72, _⟩ => ⟨S16384x512, .f32⟩
  | .hbm, ⟨73, _⟩ => ⟨S16384x512, .f32⟩
  | _, _ => ⟨S16384x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_cst : Ref sig .tc := ⟨.hbm, 22, rfl⟩
abbrev main_v10 : Ref sig .tc := ⟨.hbm, 23, rfl⟩
abbrev main_v11 : Ref sig .tc := ⟨.hbm, 24, rfl⟩
abbrev main_cst_0 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_cst_1 : Ref sig .tc := ⟨.hbm, 35, rfl⟩
abbrev main_v21 : Ref sig .tc := ⟨.hbm, 36, rfl⟩
abbrev main_v22 : Ref sig .tc := ⟨.hbm, 37, rfl⟩
abbrev main_cst_2 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_cst_3 : Ref sig .tc := ⟨.hbm, 55, rfl⟩
abbrev main_v39 : Ref sig .tc := ⟨.hbm, 56, rfl⟩
abbrev main_v40 : Ref sig .tc := ⟨.hbm, 57, rfl⟩
abbrev main_cst_4 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_cst_5 : Ref sig .tc := ⟨.hbm, 62, rfl⟩
abbrev main_v44 : Ref sig .tc := ⟨.hbm, 63, rfl⟩
abbrev main_cst_6 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev main_v52 : Ref sig .tc := ⟨.hbm, 72, rfl⟩
abbrev main_v53 : Ref sig .tc := ⟨.hbm, 73, rfl⟩

abbrev nD : Nat := 1
abbrev τ : Topo := Topo.v7x

variable {F : FTy → Type} [FloatOps F]

class Facts₀ : Prop where
  transposes_S2x16384x512_S16384x2x512_1_0_2 : S2x16384x512.Transposes [1, 0, 2] S16384x2x512
  shapeCasts_S16384x2x512_S16384x1024 : S16384x2x512.ShapeCasts S16384x1024
  concatenates_S16384x128_S16384x1024_S16384x1152_d1 : Shape.Concatenates [S16384x128, S16384x1024] S16384x1152 1
  transposes_S512x1152_S1152x512_1_0 : S512x1152.Transposes [1, 0] S1152x512
  bcast_S512_S1x512_1 : S512.BroadcastsInDim S1x512 (![1] : Fin 1 → Fin S1x512.rank)
  bcast_S1x512_S16384x512_0_1 : S1x512.BroadcastsInDim S16384x512 (![0, 1] : Fin 2 → Fin S16384x512.rank)
  bcast_S_S16384x512 : S_.BroadcastsInDim S16384x512 (![] : Fin 0 → Fin S16384x512.rank)
  bcast_S512x128_S2x512x128_1_2 : S512x128.BroadcastsInDim S2x512x128 (![1, 2] : Fin 2 → Fin S2x512x128.rank)
  transposes_S2x2x512x512_S2x512x2x512_0_2_1_3 : S2x2x512x512.Transposes [0, 2, 1, 3] S2x512x2x512
  shapeCasts_S2x512x2x512_S2x512x1024 : S2x512x2x512.ShapeCasts S2x512x1024
  concatenates_S2x512x128_S2x512x1024_S2x512x1152_d2 : Shape.Concatenates [S2x512x128, S2x512x1024] S2x512x1152 2
  transposes_S16384x2x512_S2x16384x512_1_0_2 : S16384x2x512.Transposes [1, 0, 2] S2x16384x512
  bcast_S_S2x16384x512 : S_.BroadcastsInDim S2x16384x512 (![] : Fin 0 → Fin S2x16384x512.rank)
  reducesTo_S2x16384x512_S16384x512_d0 : S2x16384x512.ReducesTo [0] S16384x512
  h_S_ : 0 < S_.numel
  dot_S16384x1152_S1152x512_S16384x512_1_0_0_1_n_n_wf : DotDims.WF S16384x1152 S1152x512 S16384x512 [1] [0] [0] [1] [] []
  dot_S16384x1152_S2x512x1152_S16384x2x512_1_2_0_01_n_n_wf : DotDims.WF S16384x1152 S2x512x1152 S16384x2x512 [1] [2] [0] [0, 1] [] []

variable [Facts₀]

def dot_S16384x1152_S1152x512_S16384x512_1_0_0_1_n_n : DotDims S16384x1152 S1152x512 S16384x512 where
  lhsContracting := [1]
  rhsContracting := [0]
  lhsNonContracting := [0]
  rhsNonContracting := [1]
  lhsBatch := []
  rhsBatch := []
  wf := dot_S16384x1152_S1152x512_S16384x512_1_0_0_1_n_n_wf
def dot_S16384x1152_S2x512x1152_S16384x2x512_1_2_0_01_n_n : DotDims S16384x1152 S2x512x1152 S16384x2x512 where
  lhsContracting := [1]
  rhsContracting := [2]
  lhsNonContracting := [0]
  rhsNonContracting := [0, 1]
  lhsBatch := []
  rhsBatch := []
  wf := dot_S16384x1152_S2x512x1152_S16384x2x512_1_2_0_01_n_n_wf

class Facts : Prop extends Facts₀ where

variable [Facts]
-- ==== Proof.CellSpec.lean ====
/-
  One entry of the N-ary tree-LSTM cell (arity 2), as a function of extended reals.

  For a batch row b and a hidden unit h, write x for the row's joined input [label(b) | h₀(b) | h₁(b)] (1152
  numbers), w_i, w_o, w_u for row h of the three linear maps, and f₀, f₁ for row h of the two per-child forget
  maps, each itself the join [W_fl(h) | W_fs(k,0,h) | W_fs(k,1,h)]. With σ the logistic function,

      next(b,h) = σ(x·w_i + β_i) · tanh(x·w_u + β_u) + (σ(x·f₀)·c₀ + σ(x·f₁)·c₁) + φ · (c₀ + c₁)
      out(b,h)  = tanh(σ(x·w_o + β_o) · next(b,h))

  where c₀, c₁ are the children's cells at (b,h), β the biases at h and φ the forget bias at h. Sums and products
  are the exact ones of the extended reals; the grouping of the two-term sums is fixed here once, and each program's
  own grouping is brought to it by associativity and the neutral zero alone.
-/
import Idealize.ShloMosaic.Lib.ValueIdx
import Idealize.ShloMosaic.PureOps.Ideal.Laws

noncomputable section

namespace Cert.TreeCell

open Idealize.ShloMosaic Idealize.ShloMosaic.ValueIdx

/-- Three runs laid end to end: 128 numbers, then 512, then 512. -/
def join (l : Fin 128 → EReal) (r₀ r₁ : Fin 512 → EReal) (κ : Fin 1152) : EReal :=
  if h : κ.val < 128 then l ⟨κ.val, h⟩
  else if h' : κ.val < 640 then r₀ ⟨κ.val - 128, by omega⟩
  else r₁ ⟨κ.val - 640, by have := κ.isLt; omega⟩

theorem join_left (l : Fin 128 → EReal) (r₀ r₁ : Fin 512 → EReal) (κ : Fin 1152) (h : κ.val < 128) :
    join l r₀ r₁ κ = l ⟨κ.val, h⟩ := dif_pos h

theorem join_mid (l : Fin 128 → EReal) (r₀ r₁ : Fin 512 → EReal) (κ : Fin 1152) (h : 128 ≤ κ.val) (h' : κ.val < 640) :
    join l r₀ r₁ κ = r₀ ⟨κ.val - 128, by omega⟩ := by
  unfold join; rw [dif_neg (by omega), dif_pos h']

theorem join_right (l : Fin 128 → EReal) (r₀ r₁ : Fin 512 → EReal) (κ : Fin 1152) (h : 640 ≤ κ.val) :
    join l r₀ r₁ κ = r₁ ⟨κ.val - 640, by have := κ.isLt; omega⟩ := by
  unfold join; rw [dif_neg (by omega), dif_neg (by omega)]

/-- A row against a column. -/
def dot (x w : Fin 1152 → EReal) : EReal := ∑ κ : Fin 1152, x κ * w κ

/-- The next cell at one entry. -/
def nextAt (x wi wu f₀ f₁ : Fin 1152 → EReal) (βi βu φ c₀ c₁ : EReal) : EReal :=
  Ideal.logistic (dot x wi + βi) * Ideal.tanh (dot x wu + βu)
    + (Ideal.logistic (dot x f₀) * c₀ + Ideal.logistic (dot x f₁) * c₁)
    + φ * (c₀ + c₁)

/-- The output at one entry. -/
def outAt (x wi wo wu f₀ f₁ : Fin 1152 → EReal) (βi βo βu φ c₀ c₁ : EReal) : EReal :=
  Ideal.tanh (Ideal.logistic (dot x wo + βo) * nextAt x wi wu f₀ f₁ βi βu φ c₀ c₁)

/-! ## The two results as functions of the twelve argument arrays -/

section Arrays

variable (L : (⟨2, ![16384, 128]⟩ : Shape).Idx → EReal) (H C : (⟨3, ![2, 16384, 512]⟩ : Shape).Idx → EReal)
  (Wi Wo Wu : (⟨2, ![512, 1152]⟩ : Shape).Idx → EReal) (bi bo bu fb : (⟨1, ![512]⟩ : Shape).Idx → EReal)
  (Wfl : (⟨2, ![512, 128]⟩ : Shape).Idx → EReal) (Wfs : (⟨4, ![2, 2, 512, 512]⟩ : Shape).Idx → EReal)

/-- Row b of the joined input. -/
def xrow (b : Fin 16384) : Fin 1152 → EReal :=
  join (fun d => L (ix2 b d)) (fun e => H (ix3 (0 : Fin 2) b e)) (fun e => H (ix3 (1 : Fin 2) b e))

/-- Row h of child k's forget map. -/
def frow (k : Fin 2) (h : Fin 512) : Fin 1152 → EReal :=
  join (fun d => Wfl (ix2 h d)) (fun e => Wfs (ix4 k (0 : Fin 2) h e)) (fun e => Wfs (ix4 k (1 : Fin 2) h e))

/-- The next cell, the whole array. -/
def next : (⟨2, ![16384, 512]⟩ : Shape).Idx → EReal := fun i =>
  nextAt (xrow L H (i 0)) (fun κ => Wi (ix2 (i 1) κ)) (fun κ => Wu (ix2 (i 1) κ))
    (frow Wfl Wfs 0 (i 1)) (frow Wfl Wfs 1 (i 1))
    (bi (ix1 (i 1))) (bu (ix1 (i 1))) (fb (ix1 (i 1)))
    (C (ix3 (0 : Fin 2) (i 0) (i 1))) (C (ix3 (1 : Fin 2) (i 0) (i 1)))

/-- The output, the whole array. -/
def out : (⟨2, ![16384, 512]⟩ : Shape).Idx → EReal := fun i =>
  outAt (xrow L H (i 0)) (fun κ => Wi (ix2 (i 1) κ)) (fun κ => Wo (ix2 (i 1) κ)) (fun κ => Wu (ix2 (i 1) κ))
    (frow Wfl Wfs 0 (i 1)) (frow Wfl Wfs 1 (i 1))
    (bi (ix1 (i 1))) (bo (ix1 (i 1))) (bu (ix1 (i 1))) (fb (ix1 (i 1)))
    (C (ix3 (0 : Fin 2) (i 0) (i 1))) (C (ix3 (1 : Fin 2) (i 0) (i 1)))

end Arrays

/-! ## The two literals, and the logistic function spelt out -/

/-- The word 0x3F800000 is the number one. -/
theorem ofBits_one : Ideal.ofBits .f32 0x3F800000#32 = 1 := by
  simp [Ideal.ofBits, Ideal.ieee, -EReal.coe_mul]; norm_num

/-- One over one plus e to the minus z is the logistic function of z, on every extended real. -/
theorem logistic_spelt (z : EReal) : Ideal.div 1 (1 + Ideal.exp (-z)) = Ideal.logistic z := rfl

/-- A two-term sum started from zero, grouped from the left. -/
theorem zero_add_add (a b : EReal) : (0 + a) + b = a + b := by rw [zero_add]

end Cert.TreeCell

end
-- ==== Proof.LibPlainDot.lean ====
/-
  A plain matrix product [a, k] · [k, b] → [a, b]: no batch axis, one contracted axis of extent k (axis 1 of the left
  operand, axis 0 of the right), the rows from the left operand, the columns from the right.

  The dimension numbers place the coordinates: the left operand is read at (row of the result, contraction
  position), the right at (contraction position, column of the result). So at the ideal values, where both the
  kernel's product into a zero accumulator and the host's product are the exact sum over the contraction index,
  the entry (p, q) of either is  ∑ κ < k, l (p, κ) · r (κ, q).
-/
import Idealize.ShloMosaic.Lib.ValueIdx
import Idealize.ShloMosaic.PureOps.Ideal.Laws

namespace Cert.PlainDot

open Idealize.ShloMosaic Idealize.ShloMosaic.ValueIdx

variable {a k b : ℕ} (d : DotDims ⟨2, ![a, k]⟩ ⟨2, ![k, b]⟩ ⟨2, ![a, b]⟩)

/-- The dimension numbers of a plain matrix product. -/
structure Plain : Prop where
  lhsBatch : d.lhsBatch = []
  lhsNon : d.lhsNonContracting = [0]
  lhsContr : d.lhsContracting = [1]
  rhsBatch : d.rhsBatch = []
  rhsNon : d.rhsNonContracting = [1]
  rhsContr : d.rhsContracting = [0]

variable {d}

/-- The left operand's row is the result's row. -/
theorem lhs_row (h : Plain d) (j : (⟨2, ![a, b]⟩ : Shape).Idx) (q : d.contr.Idx) : (d.lhsIdx j q 0).val = (j 0).val := by
  unfold DotDims.lhsIdx
  rw [dif_neg (by rw [h.lhsBatch]; exact List.not_mem_nil), dif_pos (by rw [h.lhsNon]; exact List.mem_singleton.mpr rfl)]
  simp only [Fin.val_cast]
  have key : ∀ (p : Nat) (hp : p < 2), p = 0 → (j ⟨p, hp⟩).val = (j 0).val := fun p hp e => by subst e; rfl
  exact key _ _ (by simp [h.lhsBatch, h.lhsNon])

/-- The right operand's column is the result's column. -/
theorem rhs_col (h : Plain d) (j : (⟨2, ![a, b]⟩ : Shape).Idx) (q : d.contr.Idx) : (d.rhsIdx j q 1).val = (j 1).val := by
  unfold DotDims.rhsIdx
  rw [dif_neg (by rw [h.rhsBatch]; exact List.not_mem_nil), dif_pos (by rw [h.rhsNon]; exact List.mem_singleton.mpr rfl)]
  simp only [Fin.val_cast]
  have key : ∀ (p : Nat) (hp : p < 2), p = 1 → (j ⟨p, hp⟩).val = (j 1).val := fun p hp e => by subst e; rfl
  exact key _ _ (by simp [h.lhsBatch, h.lhsNon, h.rhsNon])

/-- The contraction over the record's own index type, re-indexed to κ < k. -/
theorem sum_contr (h : Plain d) (hr : d.contr.rank = 1) (hs : d.contr.size ⟨0, by omega⟩ = k)
    (l : (⟨2, ![a, k]⟩ : Shape).Idx → EReal) (r : (⟨2, ![k, b]⟩ : Shape).Idx → EReal) (p : Fin a) (q : Fin b) :
    ∑ κ : d.contr.Idx, l (d.lhsIdx (ix2 p q) κ) * r (d.rhsIdx (ix2 p q) κ) = ∑ κ : Fin k, l (ix2 p κ) * r (ix2 κ q) := by
  rw [← Equiv.sum_comp (contrEquiv1 d k hr hs).symm]
  refine Finset.sum_congr rfl fun κ _ => ?_
  have hk := contrEquiv1_symm_val d k hr hs κ
  have el : d.lhsIdx (ix2 p q) ((contrEquiv1 d k hr hs).symm κ) = ix2 p κ := funext fun x => Fin.ext (by
    match x with
    | ⟨0, _⟩ => exact lhs_row h _ _
    | ⟨1, _⟩ => exact (d.lhsIdx_val_of_single h.lhsContr _ _).trans hk)
  have er : d.rhsIdx (ix2 p q) ((contrEquiv1 d k hr hs).symm κ) = ix2 κ q := funext fun x => Fin.ext (by
    match x with
    | ⟨0, _⟩ => exact (d.rhsIdx_val_of_single h.rhsContr _ _).trans hk
    | ⟨1, _⟩ => exact rhs_col h _ _)
  rw [el, er]

/-- The kernel's matrix product into a zero accumulator, at an entry. -/
theorem matmul_zero_apply {φ₁ φ₂ : FTy} (h : Plain d) (hr : d.contr.rank = 1) (hs : d.contr.size ⟨0, by omega⟩ = k)
    (prec : Option ContractPrecision) (l : FVec Ideal ⟨2, ![a, k]⟩ φ₁) (r : FVec Ideal ⟨2, ![k, b]⟩ φ₂) (p : Fin a) (q : Fin b) :
    matmul d prec l r (constant ⟨2, ![a, b]⟩ .f32 0x00000000#32) (ix2 p q) = ∑ κ : Fin k, l (ix2 p κ) * r (ix2 κ q) :=
  (Ideal.matmul_constant_zero_apply d prec l r (ix2 p q)).trans (sum_contr h hr hs l r p q)

/-- The host's matrix product, at an entry. -/
theorem dotGeneral_apply {φ₁ φ₂ : FTy} (h : Plain d) (hr : d.contr.rank = 1) (hs : d.contr.size ⟨0, by omega⟩ = k)
    (prec : Option ContractPrecision) (l : FVec Ideal ⟨2, ![a, k]⟩ φ₁) (r : FVec Ideal ⟨2, ![k, b]⟩ φ₂) (p : Fin a) (q : Fin b) :
    Host.dotGeneral d prec l r (ix2 p q) = ∑ κ : Fin k, l (ix2 p κ) * r (ix2 κ q) := by
  simp only [Host.dotGeneral]
  exact (Ideal.dotGeneral_apply d prec _ l r (ix2 p q)).trans (sum_contr h hr hs l r p q)

end Cert.PlainDot
-- ==== Proof.BlockCell.lean ====
import proofs.«119536_j84189948936634_1_alg».proof.Proof.Gen.KernelIdeal.Skeleton
import proofs.«119536_j84189948936634_1_alg».proof.Proof.CellSpec
import proofs.«119536_j84189948936634_1_alg».proof.Proof.LibPlainDot
import Idealize.ShloMosaic.Lib.Pipeline.Value
import Idealize.ShloMosaic.Lib.ValueLayout

noncomputable section
namespace Cert.KernelIdeal.CellValue
open Cert.KernelIdeal Cert.KernelIdeal.Gen Idealize.ShloMosaic Idealize.ShloMosaic.ValueIdx Cert.TreeCell

/-- The body's joined row: the label block's row, then each child's hidden row. -/
theorem joined_apply (l : Vec Ideal S1024x128 .f32) (h0 h1 : Vec Ideal S1x1024x512 .f32) (p : Fin 1024) (κ : Fin 1152) :
    k0_pay5 l h0 h1 (ix2 p κ)
      = join (fun d => l (ix2 p d)) (fun e => h0 (ix3 (0 : Fin 1) p e)) (fun e => h1 (ix3 (0 : Fin 1) p e)) κ := by
  unfold k0_pay5
  by_cases hl : κ.val < 128
  · rw [join_left _ _ _ κ hl]
    exact concatenate_apply_piece (t := S1024x1152) (1 : Fin 2) _ _ (ix2 p κ) 0 (by show 0 < 3; omega) S1024x128 l rfl rfl 0 rfl
      (ix2 p ⟨κ.val, hl⟩)
      (fun b hb => by
        match b with
        | ⟨0, _⟩ => rfl
        | ⟨1, _⟩ => exact absurd rfl hb)
      (by show 0 + κ.val = κ.val; omega)
  · by_cases hm : κ.val < 640
    · rw [join_mid _ _ _ κ (by omega) hm]
      refine (concatenate_apply_piece (t := S1024x1152) (1 : Fin 2) _ _ (ix2 p κ) 1 (by show 1 < 3; omega) S1024x512 _ rfl rfl 128 rfl
        (ix2 p ⟨κ.val - 128, by omega⟩)
        (fun b hb => by
          match b with
          | ⟨0, _⟩ => rfl
          | ⟨1, _⟩ => exact absurd rfl hb)
        (by show 128 + (κ.val - 128) = κ.val; omega)).trans ?_
      exact shapeCast_1ab_ab_apply h0 _ p _
    · rw [join_right _ _ _ κ (by omega)]
      refine (concatenate_apply_piece (t := S1024x1152) (1 : Fin 2) _ _ (ix2 p κ) 2 (by show 2 < 3; omega) S1024x512 _ rfl rfl 640 rfl
        (ix2 p ⟨κ.val - 640, by have := κ.isLt; omega⟩)
        (fun b hb => by
          match b with
          | ⟨0, _⟩ => rfl
          | ⟨1, _⟩ => exact absurd rfl hb)
        (by show 640 + (κ.val - 640) = κ.val; omega)).trans ?_
      exact shapeCast_1ab_ab_apply h1 _ p _

/-! ## The contraction: a row of the joined block against a column of a weight block -/

/-- The body's one contraction record is a plain matrix product. -/
theorem plain : Cert.PlainDot.Plain dot_S1024x1152_S1152x512_S1024x512_1_0_0_1_n_n :=
  ⟨rfl, rfl, rfl, rfl, rfl, rfl⟩

/-- The product of the joined block with a weight block, into a zero accumulator, at an entry: the joined row against
    the block's column. -/
theorem joined_matmul_apply (l : Vec Ideal S1024x128 .f32) (h0 h1 : Vec Ideal S1x1024x512 .f32)
    (w : FVec Ideal S1152x512 .f32) (p : Fin 1024) (q : Fin 512) :
    matmul dot_S1024x1152_S1152x512_S1024x512_1_0_0_1_n_n none (k0_pay5 l h0 h1) w
        (constant (F := Ideal) S1024x512 .f32 0x00000000#32) (ix2 p q)
      = dot (join (fun d => l (ix2 p d)) (fun e => h0 (ix3 (0 : Fin 1) p e)) (fun e => h1 (ix3 (0 : Fin 1) p e)))
          (fun κ => w (ix2 κ q)) := by
  refine (Cert.PlainDot.matmul_zero_apply plain rfl rfl none (k0_pay5 l h0 h1) w p q).trans ?_
  unfold dot
  exact Finset.sum_congr rfl fun κ _ => congrArg (· * w (ix2 κ q)) (joined_apply l h0 h1 p κ)

/-- A bias vector, viewed as one row and laid over every row of the block, reads its own entry in every row. -/
theorem bias_apply (β : Vec Ideal S512 .f32) (p : Fin 1024) (q : Fin 512) :
    broadcastTo S1024x512 (shapeCast S1x512 β shapeCasts_S512_S1x512) broadcasts_S1x512_S1024x512 (ix2 p q) = β (ix1 q) :=
  (broadcastTo_1b_ab_apply _ _ p q).trans (shapeCast_a_1a_apply β _ (0 : Fin 1) q)

/-- A pre-activation with a bias: the joined row against the weight column, plus the bias entry. -/
theorem linear_apply (l : Vec Ideal S1024x128 .f32) (h0 h1 : Vec Ideal S1x1024x512 .f32)
    (w : Vec Ideal S1152x512 .f32) (β : Vec Ideal S512 .f32) (p : Fin 1024) (q : Fin 512) :
    addf (matmul dot_S1024x1152_S1152x512_S1024x512_1_0_0_1_n_n none (k0_pay5 l h0 h1)
          (shapeCast S1152x512 w shapeCasts_S1152x512_S1152x512 : FVec Ideal S1152x512 .f32) (constant (F := Ideal) S1024x512 .f32 0x00000000#32))
        (broadcastTo S1024x512 (shapeCast S1x512 β shapeCasts_S512_S1x512) broadcasts_S1x512_S1024x512) (ix2 p q)
      = dot (join (fun d => l (ix2 p d)) (fun e => h0 (ix3 (0 : Fin 1) p e)) (fun e => h1 (ix3 (0 : Fin 1) p e)))
          (fun κ => w (ix2 κ q)) + β (ix1 q) := by
  rw [addf_apply, shapeCast_self, joined_matmul_apply, bias_apply]

/-- A forget pre-activation: the joined row against the column of the child's forget slice (no bias inside). -/
theorem forget_apply (l : Vec Ideal S1024x128 .f32) (h0 h1 : Vec Ideal S1x1024x512 .f32)
    (g : Vec Ideal S1x1152x512 .f32) (p : Fin 1024) (q : Fin 512) :
    matmul dot_S1024x1152_S1152x512_S1024x512_1_0_0_1_n_n none (k0_pay5 l h0 h1)
        (shapeCast S1152x512 g shapeCasts_S1x1152x512_S1152x512 : FVec Ideal S1152x512 .f32) (constant (F := Ideal) S1024x512 .f32 0x00000000#32) (ix2 p q)
      = dot (join (fun d => l (ix2 p d)) (fun e => h0 (ix3 (0 : Fin 1) p e)) (fun e => h1 (ix3 (0 : Fin 1) p e)))
          (fun κ => g (ix3 (0 : Fin 1) κ q)) := by
  refine (joined_matmul_apply l h0 h1 _ p q).trans ?_
  unfold dot
  exact Finset.sum_congr rfl fun κ _ => congrArg (_ * ·) (shapeCast_1ab_ab_apply g _ κ q)

/-! ## The three gates' pre-activations and the children's cells, at an entry -/

/-- The input gate at an entry. -/
theorem gate_i_apply (l : Vec Ideal S1024x128 .f32) (h0 h1 : Vec Ideal S1x1024x512 .f32)
    (wi : Vec Ideal S1152x512 .f32) (βi : Vec Ideal S512 .f32) (p : Fin 1024) (q : Fin 512) :
    k0_pay6 l h0 h1 wi βi (ix2 p q)
      = Ideal.logistic (dot (join (fun d => l (ix2 p d)) (fun e => h0 (ix3 (0 : Fin 1) p e)) (fun e => h1 (ix3 (0 : Fin 1) p e)))
          (fun κ => wi (ix2 κ q)) + βi (ix1 q)) := by
  unfold k0_pay6
  exact congrArg Ideal.logistic (linear_apply l h0 h1 wi βi p q)

/-- The output gate at an entry. -/
theorem gate_o_apply (l : Vec Ideal S1024x128 .f32) (h0 h1 : Vec Ideal S1x1024x512 .f32)
    (wo : Vec Ideal S1152x512 .f32) (βo : Vec Ideal S512 .f32) (p : Fin 1024) (q : Fin 512) :
    k0_pay7 l h0 h1 wo βo (ix2 p q)
      = Ideal.logistic (dot (join (fun d => l (ix2 p d)) (fun e => h0 (ix3 (0 : Fin 1) p e)) (fun e => h1 (ix3 (0 : Fin 1) p e)))
          (fun κ => wo (ix2 κ q)) + βo (ix1 q)) := by
  unfold k0_pay7
  exact congrArg Ideal.logistic (linear_apply l h0 h1 wo βo p q)

/-- The update's pre-activation at an entry (its hyperbolic tangent is taken where the next cell is formed). -/
theorem update_apply (l : Vec Ideal S1024x128 .f32) (h0 h1 : Vec Ideal S1x1024x512 .f32)
    (wu : Vec Ideal S1152x512 .f32) (βu : Vec Ideal S512 .f32) (p : Fin 1024) (q : Fin 512) :
    k0_pay8 l h0 h1 wu βu (ix2 p q)
      = dot (join (fun d => l (ix2 p d)) (fun e => h0 (ix3 (0 : Fin 1) p e)) (fun e => h1 (ix3 (0 : Fin 1) p e)))
          (fun κ => wu (ix2 κ q)) + βu (ix1 q) := by
  unfold k0_pay8
  exact linear_apply l h0 h1 wu βu p q

/-- The first child's cell block at an entry. -/
theorem cell0_apply (c0 : Vec Ideal S1x1024x512 .f32) (p : Fin 1024) (q : Fin 512) :
    k0_pay3 c0 (ix2 p q) = c0 (ix3 (0 : Fin 1) p q) := by
  unfold k0_pay3
  exact shapeCast_1ab_ab_apply c0 _ p q

/-- The second child's cell block at an entry. -/
theorem cell1_apply (c1 : Vec Ideal S1x1024x512 .f32) (p : Fin 1024) (q : Fin 512) :
    k0_pay4 c1 (ix2 p q) = c1 (ix3 (0 : Fin 1) p q) := by
  unfold k0_pay4
  exact shapeCast_1ab_ab_apply c1 _ p q

/-! ## The next cell and the output -/

/-- The next cell's arithmetic at an index, lane by lane, over any values of the gates and cells: the two running sums
    start from the zero word. -/
theorem next_lanes (v6 v8 : FVec Ideal S1024x512 .f32) (v9 : FVec Ideal S1024x1152 .f32) (v17 v32 : FVec Ideal S1024x512 .f32)
    (g0 g1 : Vec Ideal S1x1152x512 .f32) (φ : Vec Ideal S512 .f32) (i : S1024x512.Idx) :
    k0_pay1 v6 v8 v9 v17 v32 g0 g1 φ i
      = v17 i * Ideal.tanh (v32 i)
        + ((Ideal.ofBits .f32 0x00000000#32
              + Ideal.logistic (matmul dot_S1024x1152_S1152x512_S1024x512_1_0_0_1_n_n none v9
                  (shapeCast S1152x512 g0 shapeCasts_S1x1152x512_S1152x512 : FVec Ideal S1152x512 .f32) (constant (F := Ideal) S1024x512 .f32 0x00000000#32) i) * v6 i)
            + Ideal.logistic (matmul dot_S1024x1152_S1152x512_S1024x512_1_0_0_1_n_n none v9
                  (shapeCast S1152x512 g1 shapeCasts_S1x1152x512_S1152x512 : FVec Ideal S1152x512 .f32) (constant (F := Ideal) S1024x512 .f32 0x00000000#32) i) * v8 i)
        + broadcastTo S1024x512 (shapeCast S1x512 φ shapeCasts_S512_S1x512) broadcasts_S1x512_S1024x512 i
            * ((Ideal.ofBits .f32 0x00000000#32 + v6 i) + v8 i) := rfl

/-- The stored next-cell block at an entry. -/
theorem next_block_apply (l : Vec Ideal S1024x128 .f32) (h0 h1 c0 c1 : Vec Ideal S1x1024x512 .f32)
    (wi wu : Vec Ideal S1152x512 .f32) (βi βu φ : Vec Ideal S512 .f32) (g0 g1 : Vec Ideal S1x1152x512 .f32)
    (p : Fin 1024) (q : Fin 512) :
    k0_pay1 (k0_pay3 c0) (k0_pay4 c1) (k0_pay5 l h0 h1) (k0_pay6 l h0 h1 wi βi) (k0_pay8 l h0 h1 wu βu) g0 g1 φ (ix2 p q)
      = nextAt (join (fun d => l (ix2 p d)) (fun e => h0 (ix3 (0 : Fin 1) p e)) (fun e => h1 (ix3 (0 : Fin 1) p e)))
          (fun κ => wi (ix2 κ q)) (fun κ => wu (ix2 κ q))
          (fun κ => g0 (ix3 (0 : Fin 1) κ q)) (fun κ => g1 (ix3 (0 : Fin 1) κ q))
          (βi (ix1 q)) (βu (ix1 q)) (φ (ix1 q)) (c0 (ix3 (0 : Fin 1) p q)) (c1 (ix3 (0 : Fin 1) p q)) := by
  rw [next_lanes, gate_i_apply, update_apply, forget_apply, forget_apply, cell0_apply, cell1_apply, bias_apply,
    Ideal.ofBits_zero_f32, zero_add, zero_add]
  rfl

/-- The stored output block at an entry. -/
theorem out_block_apply (l : Vec Ideal S1024x128 .f32) (h0 h1 c0 c1 : Vec Ideal S1x1024x512 .f32)
    (wi wo wu : Vec Ideal S1152x512 .f32) (βi βo βu φ : Vec Ideal S512 .f32) (g0 g1 : Vec Ideal S1x1152x512 .f32)
    (p : Fin 1024) (q : Fin 512) :
    k0_pay2 (k0_pay3 c0) (k0_pay4 c1) (k0_pay5 l h0 h1) (k0_pay6 l h0 h1 wi βi) (k0_pay7 l h0 h1 wo βo) (k0_pay8 l h0 h1 wu βu) g0 g1 φ (ix2 p q)
      = outAt (join (fun d => l (ix2 p d)) (fun e => h0 (ix3 (0 : Fin 1) p e)) (fun e => h1 (ix3 (0 : Fin 1) p e)))
          (fun κ => wi (ix2 κ q)) (fun κ => wo (ix2 κ q)) (fun κ => wu (ix2 κ q))
          (fun κ => g0 (ix3 (0 : Fin 1) κ q)) (fun κ => g1 (ix3 (0 : Fin 1) κ q))
          (βi (ix1 q)) (βo (ix1 q)) (βu (ix1 q)) (φ (ix1 q)) (c0 (ix3 (0 : Fin 1) p q)) (c1 (ix3 (0 : Fin 1) p q)) := by
  unfold k0_pay2 outAt
  show Ideal.tanh (k0_pay7 l h0 h1 wo βo (ix2 p q)
      * k0_pay1 (k0_pay3 c0) (k0_pay4 c1) (k0_pay5 l h0 h1) (k0_pay6 l h0 h1 wi βi) (k0_pay8 l h0 h1 wu βu) g0 g1 φ (ix2 p q)) = _
  rw [gate_o_apply, next_block_apply]

end Cert.KernelIdeal.CellValue
end
-- ==== Proof.KernelWeights.lean ====
/-
  What the pallas region finds in the arrays that @main computes before it.

  The three linear maps reach the region transposed: entry (κ, q) of each is entry (q, κ) of the argument. The
  per-child forget map is assembled on the host — W_fl repeated for both children, W_fs with its two middle axes
  exchanged and flattened, the two joined along the last axis, and the last two axes exchanged — so entry (k, κ, q)
  of what the region finds is position κ of row q of child k's forget map: the join [W_fl(q) | W_fs(k,0,q) | W_fs(k,1,q)].
-/
import proofs.«119536_j84189948936634_1_alg».proof.Proof.Gen.KernelIdeal.Frame
import proofs.«119536_j84189948936634_1_alg».proof.Proof.CellSpec
import Idealize.ShloMosaic.Lib.Pipeline.Value
import Idealize.ShloMosaic.Lib.StableHlo.Run

noncomputable section

namespace Cert.KernelIdeal.Weights

open Cert.KernelIdeal Cert.KernelIdeal.Gen Idealize.ShloMosaic Idealize.ShloMosaic.TcCoe Idealize.ShloMosaic.ValueIdx
open Idealize.ShloMosaic.StableHlo Cert.TreeCell

variable (m : (ℓ : Loc nD τ sig) → Buf (Elt Ideal) ℓ)

/-- A [512, 1152] matrix transposed, at an entry. -/
theorem transposed_at (W : S512x1152.Idx → EReal) (κ : Fin 1152) (q : Fin 512) :
    transpose S1152x512 [1, 0] W transposes_S512x1152_S1152x512_1_0 (ix2 κ q) = W (ix2 q κ) :=
  transpose_apply [1, 0] W transposes_S512x1152_S1152x512_1_0 (ix2 κ q) (ix2 q κ) (fun b => match b with
    | ⟨0, _⟩ => rfl
    | ⟨1, _⟩ => rfl)

/-- The input-gate map as the region finds it. -/
theorem wi_at (c : Dev nD) (κ : Fin 1152) (q : Fin 512) :
    (V m c main_v0 : S1152x512.Idx → EReal) (ix2 κ q) = (m ((c : Thread nD τ).loc main_arg3) : S512x1152.Idx → EReal) (ix2 q κ) := by
  have e : (V m c main_v0 : S1152x512.Idx → EReal)
      = transpose S1152x512 [1, 0] (m ((c : Thread nD τ).loc main_arg3) : S512x1152.Idx → EReal) transposes_S512x1152_S1152x512_1_0 := by
    dsimp only [Gen.V, Gen.hostOps0]; after_results
  exact (congrFun e (ix2 κ q)).trans (transposed_at _ κ q)

/-- The output-gate map as the region finds it. -/
theorem wo_at (c : Dev nD) (κ : Fin 1152) (q : Fin 512) :
    (V m c main_v1 : S1152x512.Idx → EReal) (ix2 κ q) = (m ((c : Thread nD τ).loc main_arg5) : S512x1152.Idx → EReal) (ix2 q κ) := by
  have e : (V m c main_v1 : S1152x512.Idx → EReal)
      = transpose S1152x512 [1, 0] (m ((c : Thread nD τ).loc main_arg5) : S512x1152.Idx → EReal) transposes_S512x1152_S1152x512_1_0 := by
    dsimp only [Gen.V, Gen.hostOps0]; after_results
  exact (congrFun e (ix2 κ q)).trans (transposed_at _ κ q)

/-- The update map as the region finds it. -/
theorem wu_at (c : Dev nD) (κ : Fin 1152) (q : Fin 512) :
    (V m c main_v2 : S1152x512.Idx → EReal) (ix2 κ q) = (m ((c : Thread nD τ).loc main_arg7) : S512x1152.Idx → EReal) (ix2 q κ) := by
  have e : (V m c main_v2 : S1152x512.Idx → EReal)
      = transpose S1152x512 [1, 0] (m ((c : Thread nD τ).loc main_arg7) : S512x1152.Idx → EReal) transposes_S512x1152_S1152x512_1_0 := by
    dsimp only [Gen.V, Gen.hostOps0]; after_results
  exact (congrFun e (ix2 κ q)).trans (transposed_at _ κ q)

/-! ## The forget map -/

/-- The host's assembly of the forget map, before its last transposition, at (k, q, κ). -/
theorem assembled_at (Wfl : S512x128.Idx → EReal) (Wfs : S2x2x512x512.Idx → EReal) (k : Fin 2) (q : Fin 512) (κ : Fin 1152) :
    concatenate S2x512x1152 2
        [⟨S2x512x128, broadcastInDim S2x512x128 ![1, 2] bcast_S512x128_S2x512x128_1_2 Wfl⟩,
         ⟨S2x512x1024, shapeCast S2x512x1024 (transpose S2x512x2x512 [0, 2, 1, 3] Wfs transposes_S2x2x512x512_S2x512x2x512_0_2_1_3)
            shapeCasts_S2x512x2x512_S2x512x1024⟩]
        concatenates_S2x512x128_S2x512x1024_S2x512x1152_d2 (ix3 k q κ)
      = frow Wfl Wfs k q κ := by
  unfold frow
  by_cases h : κ.val < 128
  · -- the W_fl run
    rw [join_left _ _ _ κ h]
    refine (concatenate_pair_apply_left (t := S2x512x1152) (s₁ := S2x512x128) (s₂ := S2x512x1024) (2 : Fin 3) _ _ concatenates_S2x512x128_S2x512x1024_S2x512x1152_d2 (ix3 k q κ) rfl
      (ix3 k q (⟨κ.val, h⟩ : Fin 128)) (fun b => match b with | ⟨0, _⟩ => rfl | ⟨1, _⟩ => rfl | ⟨2, _⟩ => rfl)).trans ?_
    exact broadcastInDim_apply _ bcast_S512x128_S2x512x128_1_2 Wfl (ix3 k q (⟨κ.val, h⟩ : Fin 128)) (ix2 q (⟨κ.val, h⟩ : Fin 128)) (fun a => match a with
      | ⟨0, _⟩ => by show q.val = if (512 : Nat) = 1 then 0 else q.val; rw [if_neg (by decide)]
      | ⟨1, _⟩ => by show κ.val = if (128 : Nat) = 1 then 0 else κ.val; rw [if_neg (by decide)])
  · have hκ : κ.val < 1152 := κ.isLt
    -- the flattened W_fs run: position 128 + j * 512 + e
    have hright : ∀ (j : Fin 2) (e : Fin 512), κ.val = 128 + j.val * 512 + e.val →
        concatenate S2x512x1152 2
          [⟨S2x512x128, broadcastInDim S2x512x128 ![1, 2] bcast_S512x128_S2x512x128_1_2 Wfl⟩,
           ⟨S2x512x1024, shapeCast S2x512x1024 (transpose S2x512x2x512 [0, 2, 1, 3] Wfs transposes_S2x2x512x512_S2x512x2x512_0_2_1_3)
              shapeCasts_S2x512x2x512_S2x512x1024⟩]
          concatenates_S2x512x128_S2x512x1024_S2x512x1152_d2 (ix3 k q κ) = Wfs (ix4 k j q e) := by
      intro j e hje
      have hj : j.val < 2 := j.isLt
      have he : e.val < 512 := e.isLt
      refine (concatenate_pair_apply_right (t := S2x512x1152) (s₁ := S2x512x128) (s₂ := S2x512x1024) (2 : Fin 3) _ _ concatenates_S2x512x128_S2x512x1024_S2x512x1152_d2 (ix3 k q κ) rfl rfl
        (ix3 k q (⟨j.val * 512 + e.val, by omega⟩ : Fin 1024))
        (fun b hb => match b, hb with | ⟨0, _⟩, _ => rfl | ⟨1, _⟩, _ => rfl | ⟨2, _⟩, hb => absurd rfl hb)
        (by show j.val * 512 + e.val + 128 = κ.val; omega)).trans ?_
      refine (shapeCast_apply _ shapeCasts_S2x512x2x512_S2x512x1024 (ix3 k q (⟨j.val * 512 + e.val, by omega⟩ : Fin 1024)) (ix4 k q j e)
        (by rewrite [Shape.rowMajor_val_four, Shape.rowMajor_val_three]
            show ((k.val * 512 + q.val) * 2 + j.val) * 512 + e.val = (k.val * 512 + q.val) * 1024 + (j.val * 512 + e.val)
            ring)).trans ?_
      exact transpose_apply [0, 2, 1, 3] Wfs transposes_S2x2x512x512_S2x512x2x512_0_2_1_3 (ix4 k q j e) (ix4 k j q e) (fun b => match b with
        | ⟨0, _⟩ => rfl
        | ⟨1, _⟩ => rfl
        | ⟨2, _⟩ => rfl
        | ⟨3, _⟩ => rfl)
    by_cases h' : κ.val < 640
    · rw [join_mid _ _ _ κ (by omega) h']
      exact hright 0 ⟨κ.val - 128, by omega⟩ (by show κ.val = 128 + 0 * 512 + (κ.val - 128); omega)
    · rw [join_right _ _ _ κ (by omega)]
      exact hright 1 ⟨κ.val - 640, by omega⟩ (by show κ.val = 128 + 1 * 512 + (κ.val - 640); omega)

/-- The forget map as the region finds it: entry (k, κ, q) is position κ of row q of child k's map. -/
theorem wf_at (c : Dev nD) (k : Fin 2) (κ : Fin 1152) (q : Fin 512) :
    (V m c main_v7 : S2x1152x512.Idx → EReal) (ix3 k κ q)
      = frow (m ((c : Thread nD τ).loc main_arg9) : S512x128.Idx → EReal) (m ((c : Thread nD τ).loc main_arg10) : S2x2x512x512.Idx → EReal) k q κ := by
  have e : (V m c main_v7 : S2x1152x512.Idx → EReal)
      = transpose S2x1152x512 [0, 2, 1]
          (concatenate S2x512x1152 2
            [⟨S2x512x128, broadcastInDim S2x512x128 ![1, 2] bcast_S512x128_S2x512x128_1_2 (m ((c : Thread nD τ).loc main_arg9) : S512x128.Idx → EReal)⟩,
             ⟨S2x512x1024, shapeCast S2x512x1024 (transpose S2x512x2x512 [0, 2, 1, 3] (m ((c : Thread nD τ).loc main_arg10) : S2x2x512x512.Idx → EReal) transposes_S2x2x512x512_S2x512x2x512_0_2_1_3)
                shapeCasts_S2x512x2x512_S2x512x1024⟩]
            concatenates_S2x512x128_S2x512x1024_S2x512x1152_d2)
          transposes_S2x512x1152_S2x1152x512_0_2_1 := by
    dsimp only [Gen.V, Gen.hostOps0]; after_results; rfl
  refine (congrFun e (ix3 k κ q)).trans ?_
  refine (transpose_apply [0, 2, 1] _ transposes_S2x512x1152_S2x1152x512_0_2_1 (ix3 k κ q) (ix3 k q κ) (fun b => match b with
    | ⟨0, _⟩ => rfl
    | ⟨1, _⟩ => rfl
    | ⟨2, _⟩ => rfl)).trans ?_
  exact assembled_at _ _ k q κ

end Cert.KernelIdeal.Weights

end
-- ==== Proof.BlockReads.lean ====
/-
  Each window's block at a grid point, read at an entry, in terms of the arrays the region finds.

  The grid has 16 points; point t stages rows t * 1024 … t * 1024 + 1023 of the label, of both children's hidden
  states and cells, and of the two results, and the whole of every weight and bias array. So row p of a block at
  point t is row t * 1024 + p of the batch, and a weight block is the weight array.
-/
import proofs.«119536_j84189948936634_1_alg».proof.Proof.Gen.KernelIdeal.Frame
import proofs.«119536_j84189948936634_1_alg».proof.Proof.KernelWeights

noncomputable section

namespace Cert.KernelIdeal.Blocks

open Cert.KernelIdeal Cert.KernelIdeal.Gen Idealize.ShloMosaic Idealize.ShloMosaic.TcCoe Idealize.ShloMosaic.ValueIdx
open Cert.TreeCell

variable (m : (ℓ : Loc nD τ sig) → Buf (Elt Ideal) ℓ)

/-- The batch row under row p of a block at grid point t. -/
def rowOf (t : Fin cfg0.N) (p : Fin 1024) : Fin 16384 :=
  ⟨t.val * 1024 + p.val, by have ht : t.val < 16 := t.isLt; have := p.isLt; omega⟩

theorem rowOf_val (t : Fin cfg0.N) (p : Fin 1024) : (rowOf t p).val = t.val * 1024 + p.val := rfl

/-- The index maps of the windows that move with the grid point: block index t on the batch axis, zero elsewhere. -/
theorem idx_moving : ∀ t : Fin cfg0.N,
    win0_0.index t (0 : Fin 2) = t.val ∧ win0_0.index t (1 : Fin 2) = 0
    ∧ win0_1.index t (0 : Fin 3) = 0 ∧ win0_1.index t (1 : Fin 3) = t.val ∧ win0_1.index t (2 : Fin 3) = 0
    ∧ win0_2.index t (0 : Fin 3) = 0 ∧ win0_2.index t (1 : Fin 3) = t.val ∧ win0_2.index t (2 : Fin 3) = 0
    ∧ win0_11.index t (0 : Fin 2) = t.val ∧ win0_11.index t (1 : Fin 2) = 0
    ∧ win0_12.index t (0 : Fin 2) = t.val ∧ win0_12.index t (1 : Fin 2) = 0 :=
  (by decide +kernel : ∀ t : Fin grid0.N, _)

/-- The index maps of the windows that stay: block index zero on every axis. -/
theorem idx_resident : ∀ t : Fin cfg0.N,
    win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 3) = 0 ∧ win0_6.index t (1 : Fin 3) = 0 ∧ win0_6.index t (2 : Fin 3) = 0
    ∧ win0_7.index t (0 : Fin 1) = 0 ∧ win0_8.index t (0 : Fin 1) = 0
    ∧ win0_9.index t (0 : Fin 1) = 0 ∧ win0_10.index t (0 : Fin 1) = 0 :=
  (by decide +kernel : ∀ t : Fin grid0.N, _)

/-- The label block. -/
theorem label_blk (c : Dev nD) (t : Fin cfg0.N) (p : Fin 1024) (d : Fin 128) :
    (iblk m c 0 t : S1024x128.Idx → EReal) (ix2 p d)
      = (m ((c : Thread nD τ).loc main_arg0) : S16384x128.Idx → EReal) (ix2 (rowOf t p) d) := by
  show (V m c main_arg0 : S16384x128.Idx → EReal) (((cfg0.win 0).blk t).view.emb (ix2 p d)) = _
  rw [V_main_arg0]
  refine congrArg _ (funext fun a => Fin.ext ?_)
  obtain ⟨e0, e1, -⟩ := idx_moving t
  match a with
  | ⟨0, _⟩ => show win0_0.index t (0 : Fin 2) * 1024 + 1 * p.val = t.val * 1024 + p.val; omega
  | ⟨1, _⟩ => show win0_0.index t (1 : Fin 2) * 128 + 1 * d.val = d.val; omega

/-- A child's hidden-state block. -/
theorem hidden_blk (c : Dev nD) (t : Fin cfg0.N) (k : Fin 2) (p : Fin 1024) (e : Fin 512) :
    (iblk m c 1 t : S2x1024x512.Idx → EReal) (ix3 k p e)
      = (m ((c : Thread nD τ).loc main_arg1) : S2x16384x512.Idx → EReal) (ix3 k (rowOf t p) e) := by
  show (V m c main_arg1 : S2x16384x512.Idx → EReal) (((cfg0.win 1).blk t).view.emb (ix3 k p e)) = _
  rw [V_main_arg1]
  refine congrArg _ (funext fun a => Fin.ext ?_)
  obtain ⟨-, -, e0, e1, e2, -⟩ := idx_moving t
  match a with
  | ⟨0, _⟩ => show win0_1.index t (0 : Fin 3) * 2 + 1 * k.val = k.val; omega
  | ⟨1, _⟩ => show win0_1.index t (1 : Fin 3) * 1024 + 1 * p.val = t.val * 1024 + p.val; omega
  | ⟨2, _⟩ => show win0_1.index t (2 : Fin 3) * 512 + 1 * e.val = e.val; omega

/-- A child's cell block. -/
theorem cell_blk (c : Dev nD) (t : Fin cfg0.N) (k : Fin 2) (p : Fin 1024) (e : Fin 512) :
    (iblk m c 2 t : S2x1024x512.Idx → EReal) (ix3 k p e)
      = (m ((c : Thread nD τ).loc main_arg2) : S2x16384x512.Idx → EReal) (ix3 k (rowOf t p) e) := by
  show (V m c main_arg2 : S2x16384x512.Idx → EReal) (((cfg0.win 2).blk t).view.emb (ix3 k p e)) = _
  rw [V_main_arg2]
  refine congrArg _ (funext fun a => Fin.ext ?_)
  obtain ⟨-, -, -, -, -, e0, e1, e2, -⟩ := idx_moving t
  match a with
  | ⟨0, _⟩ => show win0_2.index t (0 : Fin 3) * 2 + 1 * k.val = k.val; omega
  | ⟨1, _⟩ => show win0_2.index t (1 : Fin 3) * 1024 + 1 * p.val = t.val * 1024 + p.val; omega
  | ⟨2, _⟩ => show win0_2.index t (2 : Fin 3) * 512 + 1 * e.val = e.val; omega

/-- The input-gate map's block is the whole transposed map. -/
theorem wi_blk (c : Dev nD) (t : Fin cfg0.N) (κ : Fin 1152) (q : Fin 512) :
    (iblk m c 3 t : S1152x512.Idx → EReal) (ix2 κ q)
      = (m ((c : Thread nD τ).loc main_arg3) : S512x1152.Idx → EReal) (ix2 q κ) := by
  show (V m c main_v0 : S1152x512.Idx → EReal) (((cfg0.win 3).blk t).view.emb (ix2 κ q)) = _
  have he : ((cfg0.win 3).blk t).view.emb (ix2 κ q) = (ix2 κ q : S1152x512.Idx) := by
    funext a; apply Fin.ext
    obtain ⟨e0, e1, -⟩ := idx_resident t
    match a with
    | ⟨0, _⟩ => show win0_3.index t (0 : Fin 2) * 1152 + 1 * κ.val = κ.val; omega
    | ⟨1, _⟩ => show win0_3.index t (1 : Fin 2) * 512 + 1 * q.val = q.val; omega
  rw [he]; exact Weights.wi_at m c κ q

/-- The output-gate map's block. -/
theorem wo_blk (c : Dev nD) (t : Fin cfg0.N) (κ : Fin 1152) (q : Fin 512) :
    (iblk m c 4 t : S1152x512.Idx → EReal) (ix2 κ q)
      = (m ((c : Thread nD τ).loc main_arg5) : S512x1152.Idx → EReal) (ix2 q κ) := by
  show (V m c main_v1 : S1152x512.Idx → EReal) (((cfg0.win 4).blk t).view.emb (ix2 κ q)) = _
  have he : ((cfg0.win 4).blk t).view.emb (ix2 κ q) = (ix2 κ q : S1152x512.Idx) := by
    funext a; apply Fin.ext
    obtain ⟨-, -, e0, e1, -⟩ := idx_resident t
    match a with
    | ⟨0, _⟩ => show win0_4.index t (0 : Fin 2) * 1152 + 1 * κ.val = κ.val; omega
    | ⟨1, _⟩ => show win0_4.index t (1 : Fin 2) * 512 + 1 * q.val = q.val; omega
  rw [he]; exact Weights.wo_at m c κ q

/-- The update map's block. -/
theorem wu_blk (c : Dev nD) (t : Fin cfg0.N) (κ : Fin 1152) (q : Fin 512) :
    (iblk m c 5 t : S1152x512.Idx → EReal) (ix2 κ q)
      = (m ((c : Thread nD τ).loc main_arg7) : S512x1152.Idx → EReal) (ix2 q κ) := by
  show (V m c main_v2 : S1152x512.Idx → EReal) (((cfg0.win 5).blk t).view.emb (ix2 κ q)) = _
  have he : ((cfg0.win 5).blk t).view.emb (ix2 κ q) = (ix2 κ q : S1152x512.Idx) := by
    funext a; apply Fin.ext
    obtain ⟨-, -, -, -, e0, e1, -⟩ := idx_resident t
    match a with
    | ⟨0, _⟩ => show win0_5.index t (0 : Fin 2) * 1152 + 1 * κ.val = κ.val; omega
    | ⟨1, _⟩ => show win0_5.index t (1 : Fin 2) * 512 + 1 * q.val = q.val; omega
  rw [he]; exact Weights.wu_at m c κ q

/-- The forget map's block: entry (k, κ, q) is position κ of row q of child k's map. -/
theorem wf_blk (c : Dev nD) (t : Fin cfg0.N) (k : Fin 2) (κ : Fin 1152) (q : Fin 512) :
    (iblk m c 6 t : S2x1152x512.Idx → EReal) (ix3 k κ q)
      = frow (m ((c : Thread nD τ).loc main_arg9) : S512x128.Idx → EReal) (m ((c : Thread nD τ).loc main_arg10) : S2x2x512x512.Idx → EReal) k q κ := by
  show (V m c main_v7 : S2x1152x512.Idx → EReal) (((cfg0.win 6).blk t).view.emb (ix3 k κ q)) = _
  have he : ((cfg0.win 6).blk t).view.emb (ix3 k κ q) = (ix3 k κ q : S2x1152x512.Idx) := by
    funext a; apply Fin.ext
    obtain ⟨-, -, -, -, -, -, e0, e1, e2, -⟩ := idx_resident t
    match a with
    | ⟨0, _⟩ => show win0_6.index t (0 : Fin 3) * 2 + 1 * k.val = k.val; omega
    | ⟨1, _⟩ => show win0_6.index t (1 : Fin 3) * 1152 + 1 * κ.val = κ.val; omega
    | ⟨2, _⟩ => show win0_6.index t (2 : Fin 3) * 512 + 1 * q.val = q.val; omega
  rw [he]; exact Weights.wf_at m c k κ q

/-- The input-gate bias block. -/
theorem bi_blk (c : Dev nD) (t : Fin cfg0.N) (q : Fin 512) :
    (iblk m c 7 t : S512.Idx → EReal) (ix1 q) = (m ((c : Thread nD τ).loc main_arg4) : S512.Idx → EReal) (ix1 q) := by
  show (V m c main_arg4 : S512.Idx → EReal) (((cfg0.win 7).blk t).view.emb (ix1 q)) = _
  rw [V_main_arg4]
  refine congrArg _ (funext fun a => Fin.ext ?_)
  obtain ⟨-, -, -, -, -, -, -, -, -, e0, -⟩ := idx_resident t
  match a with
  | ⟨0, _⟩ => show win0_7.index t (0 : Fin 1) * 512 + 1 * q.val = q.val; omega

/-- The output-gate bias block. -/
theorem bo_blk (c : Dev nD) (t : Fin cfg0.N) (q : Fin 512) :
    (iblk m c 8 t : S512.Idx → EReal) (ix1 q) = (m ((c : Thread nD τ).loc main_arg6) : S512.Idx → EReal) (ix1 q) := by
  show (V m c main_arg6 : S512.Idx → EReal) (((cfg0.win 8).blk t).view.emb (ix1 q)) = _
  rw [V_main_arg6]
  refine congrArg _ (funext fun a => Fin.ext ?_)
  obtain ⟨-, -, -, -, -, -, -, -, -, -, e0, -⟩ := idx_resident t
  match a with
  | ⟨0, _⟩ => show win0_8.index t (0 : Fin 1) * 512 + 1 * q.val = q.val; omega

/-- The update bias block. -/
theorem bu_blk (c : Dev nD) (t : Fin cfg0.N) (q : Fin 512) :
    (iblk m c 9 t : S512.Idx → EReal) (ix1 q) = (m ((c : Thread nD τ).loc main_arg8) : S512.Idx → EReal) (ix1 q) := by
  show (V m c main_arg8 : S512.Idx → EReal) (((cfg0.win 9).blk t).view.emb (ix1 q)) = _
  rw [V_main_arg8]
  refine congrArg _ (funext fun a => Fin.ext ?_)
  obtain ⟨-, -, -, -, -, -, -, -, -, -, -, e0, -⟩ := idx_resident t
  match a with
  | ⟨0, _⟩ => show win0_9.index t (0 : Fin 1) * 512 + 1 * q.val = q.val; omega

/-- The forget bias block. -/
theorem fb_blk (c : Dev nD) (t : Fin cfg0.N) (q : Fin 512) :
    (iblk m c 10 t : S512.Idx → EReal) (ix1 q) = (m ((c : Thread nD τ).loc main_arg11) : S512.Idx → EReal) (ix1 q) := by
  show (V m c main_arg11 : S512.Idx → EReal) (((cfg0.win 10).blk t).view.emb (ix1 q)) = _
  rw [V_main_arg11]
  refine congrArg _ (funext fun a => Fin.ext ?_)
  obtain ⟨-, -, -, -, -, -, -, -, -, -, -, -, e0⟩ := idx_resident t
  match a with
  | ⟨0, _⟩ => show win0_10.index t (0 : Fin 1) * 512 + 1 * q.val = q.val; omega

/-! ## The body's load rectangles, at an entry -/

theorem r0_idx (p : Fin 1024) (d : Fin 128) : r0_0.idx (ix2 p d) = (ix2 p d : S1024x128.Idx) := by
  funext a; apply Fin.ext
  match a with
  | ⟨0, _⟩ => show 0 + 1 * p.val = p.val; omega
  | ⟨1, _⟩ => show 0 + 1 * d.val = d.val; omega

theorem r1_idx (p : Fin 1024) (e : Fin 512) : r0_1.idx (ix3 (0 : Fin 1) p e) = (ix3 (0 : Fin 2) p e : S2x1024x512.Idx) := by
  funext a; apply Fin.ext
  match a with
  | ⟨0, _⟩ => rfl
  | ⟨1, _⟩ => show 0 + 1 * p.val = p.val; omega
  | ⟨2, _⟩ => show 0 + 1 * e.val = e.val; omega

theorem r2_idx (p : Fin 1024) (e : Fin 512) : r0_2.idx (ix3 (0 : Fin 1) p e) = (ix3 (1 : Fin 2) p e : S2x1024x512.Idx) := by
  funext a; apply Fin.ext
  match a with
  | ⟨0, _⟩ => rfl
  | ⟨1, _⟩ => show 0 + 1 * p.val = p.val; omega
  | ⟨2, _⟩ => show 0 + 1 * e.val = e.val; omega

theorem r3_idx (κ : Fin 1152) (q : Fin 512) : r0_3.idx (ix2 κ q) = (ix2 κ q : S1152x512.Idx) := by
  funext a; apply Fin.ext
  match a with
  | ⟨0, _⟩ => show 0 + 1 * κ.val = κ.val; omega
  | ⟨1, _⟩ => show 0 + 1 * q.val = q.val; omega

theorem r4_idx (q : Fin 512) : r0_4.idx (ix1 q) = (ix1 q : S512.Idx) := by
  funext a; apply Fin.ext
  match a with
  | ⟨0, _⟩ => show 0 + 1 * q.val = q.val; omega

theorem r5_idx (κ : Fin 1152) (q : Fin 512) : r0_5.idx (ix3 (0 : Fin 1) κ q) = (ix3 (0 : Fin 2) κ q : S2x1152x512.Idx) := by
  funext a; apply Fin.ext
  match a with
  | ⟨0, _⟩ => rfl
  | ⟨1, _⟩ => show 0 + 1 * κ.val = κ.val; omega
  | ⟨2, _⟩ => show 0 + 1 * q.val = q.val; omega

theorem r6_idx (κ : Fin 1152) (q : Fin 512) : r0_6.idx (ix3 (0 : Fin 1) κ q) = (ix3 (1 : Fin 2) κ q : S2x1152x512.Idx) := by
  funext a; apply Fin.ext
  match a with
  | ⟨0, _⟩ => rfl
  | ⟨1, _⟩ => show 0 + 1 * κ.val = κ.val; omega
  | ⟨2, _⟩ => show 0 + 1 * q.val = q.val; omega

end Cert.KernelIdeal.Blocks

end
-- ==== Proof.CellArrays.lean ====
/-
  The two result arrays after the kernel's run.

  At grid point t the body stores, at entry (p, q) of each output block, the cell's entry computed from row p of the
  label and children blocks and column q of the weight blocks. Row p of a block at point t is row t * 1024 + p of the
  batch, and the weight blocks are the whole (transposed, assembled) weight arrays, so what point t writes back is
  block t of the specification's array. The sixteen blocks of 1024 rows tile the 16384 rows, so after the run each
  result array is the specification's array.
-/
import proofs.«119536_j84189948936634_1_alg».proof.Proof.Gen.KernelIdeal.Value
import proofs.«119536_j84189948936634_1_alg».proof.Proof.BlockCell
import proofs.«119536_j84189948936634_1_alg».proof.Proof.BlockReads

noncomputable section

namespace Cert.KernelIdeal.Arrays

open Cert.KernelIdeal Cert.KernelIdeal.Gen Idealize.ShloMosaic Idealize.ShloMosaic.TcCoe Idealize.ShloMosaic.ValueIdx
open Idealize.SL.Sem Cert.TreeCell Cert.KernelIdeal.Blocks Cert.KernelIdeal.CellValue
open Idealize.ShloMosaic.Pipeline (Dat)

variable (m : (ℓ : Loc nD τ sig) → Buf (Elt Ideal) ℓ) (ρ : Dev nD → PrngReg)

/-- The next cell as a function of the arguments on core c. -/
abbrev nextArr (c : Dev nD) : S16384x512.Idx → EReal :=
  TreeCell.next (m ((c : Thread nD τ).loc main_arg0)) (m ((c : Thread nD τ).loc main_arg1)) (m ((c : Thread nD τ).loc main_arg2))
    (m ((c : Thread nD τ).loc main_arg3)) (m ((c : Thread nD τ).loc main_arg7))
    (m ((c : Thread nD τ).loc main_arg4)) (m ((c : Thread nD τ).loc main_arg8)) (m ((c : Thread nD τ).loc main_arg11))
    (m ((c : Thread nD τ).loc main_arg9)) (m ((c : Thread nD τ).loc main_arg10))

/-- The output as a function of the arguments on core c. -/
abbrev outArr (c : Dev nD) : S16384x512.Idx → EReal :=
  TreeCell.out (m ((c : Thread nD τ).loc main_arg0)) (m ((c : Thread nD τ).loc main_arg1)) (m ((c : Thread nD τ).loc main_arg2))
    (m ((c : Thread nD τ).loc main_arg3)) (m ((c : Thread nD τ).loc main_arg5)) (m ((c : Thread nD τ).loc main_arg7))
    (m ((c : Thread nD τ).loc main_arg4)) (m ((c : Thread nD τ).loc main_arg6)) (m ((c : Thread nD τ).loc main_arg8))
    (m ((c : Thread nD τ).loc main_arg11))
    (m ((c : Thread nD τ).loc main_arg9)) (m ((c : Thread nD τ).loc main_arg10))

theorem hz2 : (![0, 0] : Fin 2 → Nat) = fun _ => 0 := funext fun a => by fin_cases a <;> rfl

/-! ## The pieces of an entry, read off the blocks at point t -/

/-- The joined row of the blocks at point t is the joined row t * 1024 + p of the batch. -/
theorem joined_row (c : Dev nD) (t : Fin cfg0.N) (p : Fin 1024) :
    join (fun d => View.ld (iblk m c 0 t : Vec Ideal S1024x128 .f32) r0_0 (ix2 p d))
        (fun e => View.ld (iblk m c 1 t : Vec Ideal S2x1024x512 .f32) r0_1 (ix3 (0 : Fin 1) p e))
        (fun e => View.ld (iblk m c 1 t : Vec Ideal S2x1024x512 .f32) r0_2 (ix3 (0 : Fin 1) p e))
      = xrow (m ((c : Thread nD τ).loc main_arg0)) (m ((c : Thread nD τ).loc main_arg1)) (rowOf t p) := by
  unfold xrow
  congr 1
  · funext d; show (iblk m c 0 t : S1024x128.Idx → EReal) (r0_0.idx (ix2 p d)) = _; rw [r0_idx]; exact label_blk m c t p d
  · funext e; show (iblk m c 1 t : S2x1024x512.Idx → EReal) (r0_1.idx (ix3 (0 : Fin 1) p e)) = _; rw [r1_idx]; exact hidden_blk m c t 0 p e
  · funext e; show (iblk m c 1 t : S2x1024x512.Idx → EReal) (r0_2.idx (ix3 (0 : Fin 1) p e)) = _; rw [r2_idx]; exact hidden_blk m c t 1 p e

/-- Two entries of the cell agree when their ingredients do. -/
theorem nextAt_congr {x x' wi wi' wu wu' f₀ f₀' f₁ f₁' : Fin 1152 → EReal} {βi βi' βu βu' φ φ' c₀ c₀' c₁ c₁' : EReal}
    (hx : x = x') (hwi : wi = wi') (hwu : wu = wu') (hf₀ : f₀ = f₀') (hf₁ : f₁ = f₁')
    (hβi : βi = βi') (hβu : βu = βu') (hφ : φ = φ') (hc₀ : c₀ = c₀') (hc₁ : c₁ = c₁') :
    nextAt x wi wu f₀ f₁ βi βu φ c₀ c₁ = nextAt x' wi' wu' f₀' f₁' βi' βu' φ' c₀' c₁' := by
  subst hx hwi hwu hf₀ hf₁ hβi hβu hφ hc₀ hc₁; rfl

theorem outAt_congr {x x' wi wi' wo wo' wu wu' f₀ f₀' f₁ f₁' : Fin 1152 → EReal} {βi βi' βo βo' βu βu' φ φ' c₀ c₀' c₁ c₁' : EReal}
    (hx : x = x') (hwi : wi = wi') (hwo : wo = wo') (hwu : wu = wu') (hf₀ : f₀ = f₀') (hf₁ : f₁ = f₁')
    (hβi : βi = βi') (hβo : βo = βo') (hβu : βu = βu') (hφ : φ = φ') (hc₀ : c₀ = c₀') (hc₁ : c₁ = c₁') :
    outAt x wi wo wu f₀ f₁ βi βo βu φ c₀ c₁ = outAt x' wi' wo' wu' f₀' f₁' βi' βo' βu' φ' c₀' c₁' := by
  subst hx hwi hwo hwu hf₀ hf₁ hβi hβo hβu hφ hc₀ hc₁; rfl

/-- Column q of the input-gate block is row q of W_i. -/
theorem wi_col (c : Dev nD) (t : Fin cfg0.N) (q : Fin 512) :
    (fun κ : Fin 1152 => View.ld (iblk m c 3 t : Vec Ideal S1152x512 .f32) r0_3 (ix2 κ q))
      = fun κ => (m ((c : Thread nD τ).loc main_arg3) : S512x1152.Idx → EReal) (ix2 q κ) := by
  funext κ; show (iblk m c 3 t : S1152x512.Idx → EReal) (r0_3.idx (ix2 κ q)) = _; rw [r3_idx]; exact wi_blk m c t κ q

/-- Column q of the output-gate block is row q of W_o. -/
theorem wo_col (c : Dev nD) (t : Fin cfg0.N) (q : Fin 512) :
    (fun κ : Fin 1152 => View.ld (iblk m c 4 t : Vec Ideal S1152x512 .f32) r0_3 (ix2 κ q))
      = fun κ => (m ((c : Thread nD τ).loc main_arg5) : S512x1152.Idx → EReal) (ix2 q κ) := by
  funext κ; show (iblk m c 4 t : S1152x512.Idx → EReal) (r0_3.idx (ix2 κ q)) = _; rw [r3_idx]; exact wo_blk m c t κ q

/-- Column q of the update block is row q of W_u. -/
theorem wu_col (c : Dev nD) (t : Fin cfg0.N) (q : Fin 512) :
    (fun κ : Fin 1152 => View.ld (iblk m c 5 t : Vec Ideal S1152x512 .f32) r0_3 (ix2 κ q))
      = fun κ => (m ((c : Thread nD τ).loc main_arg7) : S512x1152.Idx → EReal) (ix2 q κ) := by
  funext κ; show (iblk m c 5 t : S1152x512.Idx → EReal) (r0_3.idx (ix2 κ q)) = _; rw [r3_idx]; exact wu_blk m c t κ q

/-- Column q of the first child's forget slice is row q of its forget map. -/
theorem f0_col (c : Dev nD) (t : Fin cfg0.N) (q : Fin 512) :
    (fun κ : Fin 1152 => View.ld (iblk m c 6 t : Vec Ideal S2x1152x512 .f32) r0_5 (ix3 (0 : Fin 1) κ q))
      = frow (m ((c : Thread nD τ).loc main_arg9)) (m ((c : Thread nD τ).loc main_arg10)) 0 q := by
  funext κ; show (iblk m c 6 t : S2x1152x512.Idx → EReal) (r0_5.idx (ix3 (0 : Fin 1) κ q)) = _; rw [r5_idx]; exact wf_blk m c t 0 κ q

/-- Column q of the second child's forget slice is row q of its forget map. -/
theorem f1_col (c : Dev nD) (t : Fin cfg0.N) (q : Fin 512) :
    (fun κ : Fin 1152 => View.ld (iblk m c 6 t : Vec Ideal S2x1152x512 .f32) r0_6 (ix3 (0 : Fin 1) κ q))
      = frow (m ((c : Thread nD τ).loc main_arg9)) (m ((c : Thread nD τ).loc main_arg10)) 1 q := by
  funext κ; show (iblk m c 6 t : S2x1152x512.Idx → EReal) (r0_6.idx (ix3 (0 : Fin 1) κ q)) = _; rw [r6_idx]; exact wf_blk m c t 1 κ q

theorem bi_ent (c : Dev nD) (t : Fin cfg0.N) (q : Fin 512) :
    View.ld (iblk m c 7 t : Vec Ideal S512 .f32) r0_4 (ix1 q) = (m ((c : Thread nD τ).loc main_arg4) : S512.Idx → EReal) (ix1 q) := by
  show (iblk m c 7 t : S512.Idx → EReal) (r0_4.idx (ix1 q)) = _; rw [r4_idx]; exact bi_blk m c t q

theorem bo_ent (c : Dev nD) (t : Fin cfg0.N) (q : Fin 512) :
    View.ld (iblk m c 8 t : Vec Ideal S512 .f32) r0_4 (ix1 q) = (m ((c : Thread nD τ).loc main_arg6) : S512.Idx → EReal) (ix1 q) := by
  show (iblk m c 8 t : S512.Idx → EReal) (r0_4.idx (ix1 q)) = _; rw [r4_idx]; exact bo_blk m c t q

theorem bu_ent (c : Dev nD) (t : Fin cfg0.N) (q : Fin 512) :
    View.ld (iblk m c 9 t : Vec Ideal S512 .f32) r0_4 (ix1 q) = (m ((c : Thread nD τ).loc main_arg8) : S512.Idx → EReal) (ix1 q) := by
  show (iblk m c 9 t : S512.Idx → EReal) (r0_4.idx (ix1 q)) = _; rw [r4_idx]; exact bu_blk m c t q

theorem fb_ent (c : Dev nD) (t : Fin cfg0.N) (q : Fin 512) :
    View.ld (iblk m c 10 t : Vec Ideal S512 .f32) r0_4 (ix1 q) = (m ((c : Thread nD τ).loc main_arg11) : S512.Idx → EReal) (ix1 q) := by
  show (iblk m c 10 t : S512.Idx → EReal) (r0_4.idx (ix1 q)) = _; rw [r4_idx]; exact fb_blk m c t q

theorem c0_ent (c : Dev nD) (t : Fin cfg0.N) (p : Fin 1024) (q : Fin 512) :
    View.ld (iblk m c 2 t : Vec Ideal S2x1024x512 .f32) r0_1 (ix3 (0 : Fin 1) p q)
      = (m ((c : Thread nD τ).loc main_arg2) : S2x16384x512.Idx → EReal) (ix3 (0 : Fin 2) (rowOf t p) q) := by
  show (iblk m c 2 t : S2x1024x512.Idx → EReal) (r0_1.idx (ix3 (0 : Fin 1) p q)) = _; rw [r1_idx]; exact cell_blk m c t 0 p q

theorem c1_ent (c : Dev nD) (t : Fin cfg0.N) (p : Fin 1024) (q : Fin 512) :
    View.ld (iblk m c 2 t : Vec Ideal S2x1024x512 .f32) r0_2 (ix3 (0 : Fin 1) p q)
      = (m ((c : Thread nD τ).loc main_arg2) : S2x16384x512.Idx → EReal) (ix3 (1 : Fin 2) (rowOf t p) q) := by
  show (iblk m c 2 t : S2x1024x512.Idx → EReal) (r0_2.idx (ix3 (0 : Fin 1) p q)) = _; rw [r2_idx]; exact cell_blk m c t 1 p q

/-! ## What point t stores, at an entry -/

/-- Entry (p, q) of the next-cell block stored at point t is entry (t * 1024 + p, q) of the next cell. -/
theorem next_entry (c : Dev nD) (t : Fin cfg0.N) (p : Fin 1024) (q : Fin 512) :
    k0_pay1 (k0_pay3 (View.ld (iblk m c 2 t : Vec Ideal S2x1024x512 .f32) r0_1)) (k0_pay4 (View.ld (iblk m c 2 t : Vec Ideal S2x1024x512 .f32) r0_2)) (k0_pay5 (View.ld (iblk m c 0 t : Vec Ideal S1024x128 .f32) r0_0) (View.ld (iblk m c 1 t : Vec Ideal S2x1024x512 .f32) r0_1) (View.ld (iblk m c 1 t : Vec Ideal S2x1024x512 .f32) r0_2)) (k0_pay6 (View.ld (iblk m c 0 t : Vec Ideal S1024x128 .f32) r0_0) (View.ld (iblk m c 1 t : Vec Ideal S2x1024x512 .f32) r0_1) (View.ld (iblk m c 1 t : Vec Ideal S2x1024x512 .f32) r0_2) (View.ld (iblk m c 3 t : Vec Ideal S1152x512 .f32) r0_3) (View.ld (iblk m c 7 t : Vec Ideal S512 .f32) r0_4)) (k0_pay8 (View.ld (iblk m c 0 t : Vec Ideal S1024x128 .f32) r0_0) (View.ld (iblk m c 1 t : Vec Ideal S2x1024x512 .f32) r0_1) (View.ld (iblk m c 1 t : Vec Ideal S2x1024x512 .f32) r0_2) (View.ld (iblk m c 5 t : Vec Ideal S1152x512 .f32) r0_3) (View.ld (iblk m c 9 t : Vec Ideal S512 .f32) r0_4)) (View.ld (iblk m c 6 t : Vec Ideal S2x1152x512 .f32) r0_5) (View.ld (iblk m c 6 t : Vec Ideal S2x1152x512 .f32) r0_6) (View.ld (iblk m c 10 t : Vec Ideal S512 .f32) r0_4) (ix2 p q)
      = nextArr m c (ix2 (rowOf t p) q) := by
  refine (next_block_apply _ _ _ _ _ _ _ _ _ _ _ _ p q).trans ?_
  exact nextAt_congr (joined_row m c t p) (wi_col m c t q) (wu_col m c t q) (f0_col m c t q) (f1_col m c t q)
    (bi_ent m c t q) (bu_ent m c t q) (fb_ent m c t q) (c0_ent m c t p q) (c1_ent m c t p q)

/-- Entry (p, q) of the output block stored at point t is entry (t * 1024 + p, q) of the output. -/
theorem out_entry (c : Dev nD) (t : Fin cfg0.N) (p : Fin 1024) (q : Fin 512) :
    k0_pay2 (k0_pay3 (View.ld (iblk m c 2 t : Vec Ideal S2x1024x512 .f32) r0_1)) (k0_pay4 (View.ld (iblk m c 2 t : Vec Ideal S2x1024x512 .f32) r0_2)) (k0_pay5 (View.ld (iblk m c 0 t : Vec Ideal S1024x128 .f32) r0_0) (View.ld (iblk m c 1 t : Vec Ideal S2x1024x512 .f32) r0_1) (View.ld (iblk m c 1 t : Vec Ideal S2x1024x512 .f32) r0_2)) (k0_pay6 (View.ld (iblk m c 0 t : Vec Ideal S1024x128 .f32) r0_0) (View.ld (iblk m c 1 t : Vec Ideal S2x1024x512 .f32) r0_1) (View.ld (iblk m c 1 t : Vec Ideal S2x1024x512 .f32) r0_2) (View.ld (iblk m c 3 t : Vec Ideal S1152x512 .f32) r0_3) (View.ld (iblk m c 7 t : Vec Ideal S512 .f32) r0_4)) (k0_pay7 (View.ld (iblk m c 0 t : Vec Ideal S1024x128 .f32) r0_0) (View.ld (iblk m c 1 t : Vec Ideal S2x1024x512 .f32) r0_1) (View.ld (iblk m c 1 t : Vec Ideal S2x1024x512 .f32) r0_2) (View.ld (iblk m c 4 t : Vec Ideal S1152x512 .f32) r0_3) (View.ld (iblk m c 8 t : Vec Ideal S512 .f32) r0_4)) (k0_pay8 (View.ld (iblk m c 0 t : Vec Ideal S1024x128 .f32) r0_0) (View.ld (iblk m c 1 t : Vec Ideal S2x1024x512 .f32) r0_1) (View.ld (iblk m c 1 t : Vec Ideal S2x1024x512 .f32) r0_2) (View.ld (iblk m c 5 t : Vec Ideal S1152x512 .f32) r0_3) (View.ld (iblk m c 9 t : Vec Ideal S512 .f32) r0_4)) (View.ld (iblk m c 6 t : Vec Ideal S2x1152x512 .f32) r0_5) (View.ld (iblk m c 6 t : Vec Ideal S2x1152x512 .f32) r0_6) (View.ld (iblk m c 10 t : Vec Ideal S512 .f32) r0_4) (ix2 p q)
      = outArr m c (ix2 (rowOf t p) q) := by
  refine (out_block_apply _ _ _ _ _ _ _ _ _ _ _ _ _ _ p q).trans ?_
  exact outAt_congr (joined_row m c t p) (wi_col m c t q) (wo_col m c t q) (wu_col m c t q) (f0_col m c t q) (f1_col m c t q)
    (bi_ent m c t q) (bo_ent m c t q) (bu_ent m c t q) (fb_ent m c t q) (c0_ent m c t p q) (c1_ent m c t p q)

/-! ## The flushed blocks -/

/-- Where entry (p, q) of an output block at point t lies in the array. -/
theorem emb11 (t : Fin cfg0.N) (p : Fin 1024) (q : Fin 512) :
    ((cfg0.win 11).blk t).view.emb (ix2 p q) = (ix2 (rowOf t p) q : S16384x512.Idx) := by
  funext a; apply Fin.ext
  obtain ⟨-, -, -, -, -, -, -, -, e0, e1, -⟩ := idx_moving t
  match a with
  | ⟨0, _⟩ => show win0_11.index t (0 : Fin 2) * 1024 + 1 * p.val = t.val * 1024 + p.val; omega
  | ⟨1, _⟩ => show win0_11.index t (1 : Fin 2) * 512 + 1 * q.val = q.val; omega

theorem emb12 (t : Fin cfg0.N) (p : Fin 1024) (q : Fin 512) :
    ((cfg0.win 12).blk t).view.emb (ix2 p q) = (ix2 (rowOf t p) q : S16384x512.Idx) := by
  funext a; apply Fin.ext
  obtain ⟨-, -, -, -, -, -, -, -, -, -, e0, e1⟩ := idx_moving t
  match a with
  | ⟨0, _⟩ => show win0_12.index t (0 : Fin 2) * 1024 + 1 * p.val = t.val * 1024 + p.val; omega
  | ⟨1, _⟩ => show win0_12.index t (1 : Fin 2) * 512 + 1 * q.val = q.val; omega

/-- What point t writes back to the next-cell array is block t of the next cell. -/
theorem flushed11_eq (c : Dev nD) (t : Fin cfg0.N) :
    (dats m 0 c).flushed 11 t = ((cfg0.win 11).blk t).view.read (Elt Ideal) (nextArr m c) := by
  rw [Value.flushed11]
  unfold out0_11
  rw [View.canon_unit_zero hz2]
  funext j
  obtain ⟨p, q, rfl⟩ : ∃ (p : Fin 1024) (q : Fin 512), j = ix2 p q := ⟨j 0, j 1, eq_ix2 j⟩
  show k0_pay1 (k0_pay3 (View.ld (iblk m c 2 t : Vec Ideal S2x1024x512 .f32) r0_1)) (k0_pay4 (View.ld (iblk m c 2 t : Vec Ideal S2x1024x512 .f32) r0_2)) (k0_pay5 (View.ld (iblk m c 0 t : Vec Ideal S1024x128 .f32) r0_0) (View.ld (iblk m c 1 t : Vec Ideal S2x1024x512 .f32) r0_1) (View.ld (iblk m c 1 t : Vec Ideal S2x1024x512 .f32) r0_2)) (k0_pay6 (View.ld (iblk m c 0 t : Vec Ideal S1024x128 .f32) r0_0) (View.ld (iblk m c 1 t : Vec Ideal S2x1024x512 .f32) r0_1) (View.ld (iblk m c 1 t : Vec Ideal S2x1024x512 .f32) r0_2) (View.ld (iblk m c 3 t : Vec Ideal S1152x512 .f32) r0_3) (View.ld (iblk m c 7 t : Vec Ideal S512 .f32) r0_4)) (k0_pay8 (View.ld (iblk m c 0 t : Vec Ideal S1024x128 .f32) r0_0) (View.ld (iblk m c 1 t : Vec Ideal S2x1024x512 .f32) r0_1) (View.ld (iblk m c 1 t : Vec Ideal S2x1024x512 .f32) r0_2) (View.ld (iblk m c 5 t : Vec Ideal S1152x512 .f32) r0_3) (View.ld (iblk m c 9 t : Vec Ideal S512 .f32) r0_4)) (View.ld (iblk m c 6 t : Vec Ideal S2x1152x512 .f32) r0_5) (View.ld (iblk m c 6 t : Vec Ideal S2x1152x512 .f32) r0_6) (View.ld (iblk m c 10 t : Vec Ideal S512 .f32) r0_4) (ix2 p q) = nextArr m c (((cfg0.win 11).blk t).view.emb (ix2 p q))
  rw [emb11]
  exact next_entry m c t p q

/-- What point t writes back to the output array is block t of the output. -/
theorem flushed12_eq (c : Dev nD) (t : Fin cfg0.N) :
    (dats m 0 c).flushed 12 t = ((cfg0.win 12).blk t).view.read (Elt Ideal) (outArr m c) := by
  rw [Value.flushed12]
  unfold out0_12
  rw [View.canon_unit_zero hz2]
  funext j
  obtain ⟨p, q, rfl⟩ : ∃ (p : Fin 1024) (q : Fin 512), j = ix2 p q := ⟨j 0, j 1, eq_ix2 j⟩
  show k0_pay2 (k0_pay3 (View.ld (iblk m c 2 t : Vec Ideal S2x1024x512 .f32) r0_1)) (k0_pay4 (View.ld (iblk m c 2 t : Vec Ideal S2x1024x512 .f32) r0_2)) (k0_pay5 (View.ld (iblk m c 0 t : Vec Ideal S1024x128 .f32) r0_0) (View.ld (iblk m c 1 t : Vec Ideal S2x1024x512 .f32) r0_1) (View.ld (iblk m c 1 t : Vec Ideal S2x1024x512 .f32) r0_2)) (k0_pay6 (View.ld (iblk m c 0 t : Vec Ideal S1024x128 .f32) r0_0) (View.ld (iblk m c 1 t : Vec Ideal S2x1024x512 .f32) r0_1) (View.ld (iblk m c 1 t : Vec Ideal S2x1024x512 .f32) r0_2) (View.ld (iblk m c 3 t : Vec Ideal S1152x512 .f32) r0_3) (View.ld (iblk m c 7 t : Vec Ideal S512 .f32) r0_4)) (k0_pay7 (View.ld (iblk m c 0 t : Vec Ideal S1024x128 .f32) r0_0) (View.ld (iblk m c 1 t : Vec Ideal S2x1024x512 .f32) r0_1) (View.ld (iblk m c 1 t : Vec Ideal S2x1024x512 .f32) r0_2) (View.ld (iblk m c 4 t : Vec Ideal S1152x512 .f32) r0_3) (View.ld (iblk m c 8 t : Vec Ideal S512 .f32) r0_4)) (k0_pay8 (View.ld (iblk m c 0 t : Vec Ideal S1024x128 .f32) r0_0) (View.ld (iblk m c 1 t : Vec Ideal S2x1024x512 .f32) r0_1) (View.ld (iblk m c 1 t : Vec Ideal S2x1024x512 .f32) r0_2) (View.ld (iblk m c 5 t : Vec Ideal S1152x512 .f32) r0_3) (View.ld (iblk m c 9 t : Vec Ideal S512 .f32) r0_4)) (View.ld (iblk m c 6 t : Vec Ideal S2x1152x512 .f32) r0_5) (View.ld (iblk m c 6 t : Vec Ideal S2x1152x512 .f32) r0_6) (View.ld (iblk m c 10 t : Vec Ideal S512 .f32) r0_4) (ix2 p q) = outArr m c (((cfg0.win 12).blk t).view.emb (ix2 p q))
  rw [emb12]
  exact out_entry m c t p q

/-! ## The blocks tile the arrays -/

/-- An index of the array is in point t's block iff each coordinate is in the block's range on its axis. -/
theorem mem_blk11 (t : Fin cfg0.N) (i : S16384x512.Idx) :
    i ∈ ((cfg0.win 11).blk t).view.set ↔ ∀ a : Fin 2, win0_11.index t a * S1024x512.size a ≤ (i a).val ∧ (i a).val < win0_11.index t a * S1024x512.size a + S1024x512.size a := by
  show i ∈ ((View.whole main_v8_0).slice (win0_11.rect t)).set ↔ _
  rw [View.set_slice_whole, Rect.mem_set_unit]
  exact Iff.rfl

theorem mem_blk12 (t : Fin cfg0.N) (i : S16384x512.Idx) :
    i ∈ ((cfg0.win 12).blk t).view.set ↔ ∀ a : Fin 2, win0_12.index t a * S1024x512.size a ≤ (i a).val ∧ (i a).val < win0_12.index t a * S1024x512.size a + S1024x512.size a := by
  show i ∈ ((View.whole main_v8_1).slice (win0_12.rect t)).set ↔ _
  rw [View.set_slice_whole, Rect.mem_set_unit]
  exact Iff.rfl

/-- Row r of the batch lies in the block of point r / 1024. -/
theorem cover11 (i : S16384x512.Idx) :
    ∃ t : Fin cfg0.N, (cfg0.win 11).flush t = true ∧ i ∈ ((cfg0.win 11).blk t).view.set := by
  have hi0 : (i 0).val < 16384 := (i 0).isLt
  have hi1 : (i 1).val < 512 := (i 1).isLt
  have ht : (i 0).val / 1024 < 16 := by omega
  refine ⟨⟨(i 0).val / 1024, ht⟩, flush0_11 _, ?_⟩
  rw [mem_blk11]
  obtain ⟨-, -, -, -, -, -, -, -, e0, e1, -⟩ := idx_moving ⟨(i 0).val / 1024, ht⟩
  have e0' : win0_11.index ⟨(i 0).val / 1024, ht⟩ (0 : Fin 2) = (i 0).val / 1024 := e0
  intro a
  match a with
  | ⟨0, _⟩ => show win0_11.index ⟨(i 0).val / 1024, ht⟩ (0 : Fin 2) * 1024 ≤ (i 0).val ∧ (i 0).val < win0_11.index ⟨(i 0).val / 1024, ht⟩ (0 : Fin 2) * 1024 + 1024; omega
  | ⟨1, _⟩ => show win0_11.index ⟨(i 0).val / 1024, ht⟩ (1 : Fin 2) * 512 ≤ (i 1).val ∧ (i 1).val < win0_11.index ⟨(i 0).val / 1024, ht⟩ (1 : Fin 2) * 512 + 512; omega

theorem cover12 (i : S16384x512.Idx) :
    ∃ t : Fin cfg0.N, (cfg0.win 12).flush t = true ∧ i ∈ ((cfg0.win 12).blk t).view.set := by
  have hi0 : (i 0).val < 16384 := (i 0).isLt
  have hi1 : (i 1).val < 512 := (i 1).isLt
  have ht : (i 0).val / 1024 < 16 := by omega
  refine ⟨⟨(i 0).val / 1024, ht⟩, flush0_12 _, ?_⟩
  rw [mem_blk12]
  obtain ⟨-, -, -, -, -, -, -, -, -, -, e0, e1⟩ := idx_moving ⟨(i 0).val / 1024, ht⟩
  have e0' : win0_12.index ⟨(i 0).val / 1024, ht⟩ (0 : Fin 2) = (i 0).val / 1024 := e0
  intro a
  match a with
  | ⟨0, _⟩ => show win0_12.index ⟨(i 0).val / 1024, ht⟩ (0 : Fin 2) * 1024 ≤ (i 0).val ∧ (i 0).val < win0_12.index ⟨(i 0).val / 1024, ht⟩ (0 : Fin 2) * 1024 + 1024; omega
  | ⟨1, _⟩ => show win0_12.index ⟨(i 0).val / 1024, ht⟩ (1 : Fin 2) * 512 ≤ (i 1).val ∧ (i 1).val < win0_12.index ⟨(i 0).val / 1024, ht⟩ (1 : Fin 2) * 512 + 512; omega

/-- After the run the next-cell array is the next cell. -/
theorem final11 (c : Dev nD) : (dats m 0 c).arrAt 11 cfg0.N = nextArr m c :=
  (dats m 0 c).arrAt_eq_of_cover 11 (nextArr m c) (fun t _ => flushed11_eq m c t) cover11

/-- After the run the output array is the output. -/
theorem final12 (c : Dev nD) : (dats m 0 c).arrAt 12 cfg0.N = outArr m c :=
  (dats m 0 c).arrAt_eq_of_cover 12 (outArr m c) (fun t _ => flushed12_eq m c t) cover12

/-! ## The run -/

/-- Every weakly fair execution of the kernel's program ends with the two result arrays at the cell's two functions of
    the arguments, and the arguments unchanged. -/
theorem run : θ_run defs (onTc (τ := τ) (main (F := Ideal))) ⟨m, fun _ => 0, ρ⟩ fun r => ∀ c : Dev nD,
      r.2.mem ((c : Thread nD τ).loc main_v8_0) = nextArr m c
      ∧ r.2.mem ((c : Thread nD τ).loc main_v8_1) = outArr m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8)
      ∧ r.2.mem ((c : Thread nD τ).loc main_arg9) = m ((c : Thread nD τ).loc main_arg9)
      ∧ r.2.mem ((c : Thread nD τ).loc main_arg10) = m ((c : Thread nD τ).loc main_arg10)
      ∧ r.2.mem ((c : Thread nD τ).loc main_arg11) = m ((c : Thread nD τ).loc main_arg11) :=
  (θ_run defs _ _).mono (fun r h c => ⟨(h c).1.trans (final11 m c), (h c).2.1.trans (final12 m c), (h c).2.2⟩)
    (Value.run_blocks m ρ)

end Cert.KernelIdeal.Arrays

end
-- ==== Proof.RefIsCell.lean ====
/-
  The reference computes the cell.

  The reference program builds the joined input [label | h₀ | h₁] by a transpose, a reshape and a concatenation,
  the per-child forget maps [W_fl | W_fs(k,0) | W_fs(k,1)] the same way, takes four products of the joined input
  with rows of weights, and combines them entry by entry. Read at an index (b, h), every stage is the matching
  piece of the specification's `nextAt` / `outAt`:

  * position κ of row b of the joined input is `xrow` at κ: below 128 it is the label, and position
    128 + j·512 + e is hidden unit e of child j (the reshape splits the flat position by 512);
  * position κ of row (k, h) of the forget maps is `frow` at κ, by the same split;
  * each pre-activation is the plain sum over κ of the two rows' products, that is `dot`;
  * 1 / (1 + exp (-z)) is the logistic function of z;
  * a sum over the two children started from zero is the two-term sum.

  Only index arithmetic and the neutral zero of addition are used; nothing here needs the entries to be finite.
-/
import proofs.«119536_j84189948936634_1_alg».proof.Proof.Gen.ReferenceIdeal.Read
import proofs.«119536_j84189948936634_1_alg».proof.Proof.CellSpec

noncomputable section
namespace Cert.ReferenceIdeal.RefValue
open Cert.ReferenceIdeal Cert.ReferenceIdeal.Gen Cert.ReferenceIdeal.Read Idealize.ShloMosaic Idealize.ShloMosaic.ValueIdx

/-! ## The two concatenations, read at an index -/

/-- Row b of the joined input at position κ: the label below 128, then child 0's hidden row, then child 1's. -/
theorem joined_input_at (x0 : FVec Ideal S16384x128 .f32) (x1 : FVec Ideal S2x16384x512 .f32)
    (b : Fin 16384) (κ : Fin 1152) :
    val_main_v2 (F := Ideal) x0 x1 (ix2 b κ) = Cert.TreeCell.xrow x0 x1 b κ := by
  unfold val_main_v2 Cert.TreeCell.xrow
  have hk := κ.isLt
  by_cases h : κ.val < 128
  · rw [Cert.TreeCell.join_left _ _ _ κ h]
    exact concatenate_pair_apply_left 1 x0 (val_main_v1 (F := Ideal) x1) _ (ix2 b κ) rfl (ix2 b ⟨κ.val, h⟩)
      (fun a => match a with | ⟨0, _⟩ => rfl | ⟨1, _⟩ => rfl)
  · have hc : κ.val - 128 < 1024 := by omega
    rw [concatenate_pair_apply_right 1 x0 (val_main_v1 (F := Ideal) x1) _ (ix2 b κ) rfl rfl (ix2 b ⟨κ.val - 128, hc⟩)
      (fun a => match a with | ⟨0, _⟩ => fun _ => rfl | ⟨1, _⟩ => fun hne => absurd rfl hne)
      (by show (κ.val - 128) + 128 = κ.val; omega),
      val_main_v1_apply, val_main_v0_apply]
    by_cases h' : κ.val < 640
    · rw [Cert.TreeCell.join_mid _ _ _ κ (by omega) h']
      exact congrArg x1 (funext fun a => Fin.ext (by
        match a with
        | ⟨0, _⟩ => show (b.val * 1024 + (κ.val - 128)) / 512 % 2 = 0; omega
        | ⟨1, _⟩ => show (b.val * 1024 + (κ.val - 128)) / 1024 = b.val; omega
        | ⟨2, _⟩ => show (b.val * 1024 + (κ.val - 128)) % 512 = κ.val - 128; omega))
    · rw [Cert.TreeCell.join_right _ _ _ κ (by omega)]
      exact congrArg x1 (funext fun a => Fin.ext (by
        match a with
        | ⟨0, _⟩ => show (b.val * 1024 + (κ.val - 128)) / 512 % 2 = 1; omega
        | ⟨1, _⟩ => show (b.val * 1024 + (κ.val - 128)) / 1024 = b.val; omega
        | ⟨2, _⟩ => show (b.val * 1024 + (κ.val - 128)) % 512 = κ.val - 640; omega))

/-- Row (k, h) of the forget maps at position κ: W_fl's row h below 128, then W_fs(k,0)'s row h, then W_fs(k,1)'s. -/
theorem forget_map_at (x9 : FVec Ideal S512x128 .f32) (x10 : FVec Ideal S2x2x512x512 .f32)
    (k : Fin 2) (h : Fin 512) (κ : Fin 1152) :
    val_main_v34 (F := Ideal) x9 x10 (ix3 k h κ) = Cert.TreeCell.frow x9 x10 k h κ := by
  unfold val_main_v34 Cert.TreeCell.frow
  have hk := κ.isLt
  have hk2 := k.isLt
  have hh := h.isLt
  by_cases hl : κ.val < 128
  · rw [Cert.TreeCell.join_left _ _ _ κ hl,
      concatenate_pair_apply_left 2 (val_main_v31 (F := Ideal) x9) (val_main_v33 (F := Ideal) x10) _ (ix3 k h κ) rfl
        (ix3 k h ⟨κ.val, hl⟩) (fun a => match a with | ⟨0, _⟩ => rfl | ⟨1, _⟩ => rfl | ⟨2, _⟩ => rfl),
      val_main_v31_apply]
    exact congrArg x9 (funext fun a => Fin.ext (by
      match a with
      | ⟨0, _⟩ => rfl
      | ⟨1, _⟩ => rfl))
  · have hc : κ.val - 128 < 1024 := by omega
    rw [concatenate_pair_apply_right 2 (val_main_v31 (F := Ideal) x9) (val_main_v33 (F := Ideal) x10) _ (ix3 k h κ) rfl rfl
        (ix3 k h ⟨κ.val - 128, hc⟩)
        (fun a => match a with
          | ⟨0, _⟩ => fun _ => rfl | ⟨1, _⟩ => fun _ => rfl | ⟨2, _⟩ => fun hne => absurd rfl hne)
        (by show (κ.val - 128) + 128 = κ.val; omega),
      val_main_v33_apply, val_main_v32_apply]
    by_cases h' : κ.val < 640
    · rw [Cert.TreeCell.join_mid _ _ _ κ (by omega) h']
      exact congrArg x10 (funext fun a => Fin.ext (by
        match a with
        | ⟨0, _⟩ => show ((k.val * 512 + h.val) * 1024 + (κ.val - 128)) / 524288 = k.val; omega
        | ⟨1, _⟩ => show ((k.val * 512 + h.val) * 1024 + (κ.val - 128)) / 512 % 2 = 0; omega
        | ⟨2, _⟩ => show ((k.val * 512 + h.val) * 1024 + (κ.val - 128)) / 1024 % 512 = h.val; omega
        | ⟨3, _⟩ => show ((k.val * 512 + h.val) * 1024 + (κ.val - 128)) % 512 = κ.val - 128; omega))
    · rw [Cert.TreeCell.join_right _ _ _ κ (by omega)]
      exact congrArg x10 (funext fun a => Fin.ext (by
        match a with
        | ⟨0, _⟩ => show ((k.val * 512 + h.val) * 1024 + (κ.val - 128)) / 524288 = k.val; omega
        | ⟨1, _⟩ => show ((k.val * 512 + h.val) * 1024 + (κ.val - 128)) / 512 % 2 = 1; omega
        | ⟨2, _⟩ => show ((k.val * 512 + h.val) * 1024 + (κ.val - 128)) / 1024 % 512 = h.val; omega
        | ⟨3, _⟩ => show ((k.val * 512 + h.val) * 1024 + (κ.val - 128)) % 512 = κ.val - 640; omega))

/-! ## The four products of the joined input with rows of weights -/

/-- A sum over the joined axis whose left factor reads row b of the joined input and whose right factor is w. -/
theorem sum_is_dot (x0 : FVec Ideal S16384x128 .f32) (x1 : FVec Ideal S2x16384x512 .f32) (b : Fin 16384)
    (w : Fin 1152 → EReal) (li : Fin 1152 → S16384x1152.Idx) (r : Fin 1152 → EReal)
    (hl : ∀ κ, li κ = ix2 b κ) (hr : ∀ κ, r κ = w κ) :
    ∑ κ : Fin 1152, val_main_v2 (F := Ideal) x0 x1 (li κ) * r κ
      = Cert.TreeCell.dot (Cert.TreeCell.xrow x0 x1 b) w := by
  unfold Cert.TreeCell.dot
  refine Finset.sum_congr rfl fun κ _ => ?_
  rw [hl, hr, joined_input_at]

/-- The input gate's product: row b of the joined input against row h of W_i. -/
theorem prod_i_at (x0 : FVec Ideal S16384x128 .f32) (x1 : FVec Ideal S2x16384x512 .f32) (x3 : FVec Ideal S512x1152 .f32)
    (b : Fin 16384) (h : Fin 512) :
    val_main_v4 (F := Ideal) x0 x1 x3 (ix2 b h)
      = Cert.TreeCell.dot (Cert.TreeCell.xrow x0 x1 b) (fun κ => x3 (ix2 h κ)) := by
  rw [val_main_v4_apply]
  exact sum_is_dot x0 x1 b (fun κ => x3 (ix2 h κ)) (fun κ => lidx_main_v4 (ix2 b h) κ)
    (fun κ => val_main_v3 (F := Ideal) x3 (ridx_main_v4 (ix2 b h) κ))
    (fun κ => funext fun a => Fin.ext (by match a with | ⟨0, _⟩ => rfl | ⟨1, _⟩ => rfl))
    (fun κ => by
      rw [val_main_v3_apply]
      exact congrArg x3 (funext fun a => Fin.ext (by match a with | ⟨0, _⟩ => rfl | ⟨1, _⟩ => rfl)))

/-- The output gate's product: row b of the joined input against row h of W_o. -/
theorem prod_o_at (x0 : FVec Ideal S16384x128 .f32) (x1 : FVec Ideal S2x16384x512 .f32) (x5 : FVec Ideal S512x1152 .f32)
    (b : Fin 16384) (h : Fin 512) :
    val_main_v15 (F := Ideal) x0 x1 x5 (ix2 b h)
      = Cert.TreeCell.dot (Cert.TreeCell.xrow x0 x1 b) (fun κ => x5 (ix2 h κ)) := by
  rw [val_main_v15_apply]
  exact sum_is_dot x0 x1 b (fun κ => x5 (ix2 h κ)) (fun κ => lidx_main_v15 (ix2 b h) κ)
    (fun κ => val_main_v14 (F := Ideal) x5 (ridx_main_v15 (ix2 b h) κ))
    (fun κ => funext fun a => Fin.ext (by match a with | ⟨0, _⟩ => rfl | ⟨1, _⟩ => rfl))
    (fun κ => by
      rw [val_main_v14_apply]
      exact congrArg x5 (funext fun a => Fin.ext (by match a with | ⟨0, _⟩ => rfl | ⟨1, _⟩ => rfl)))

/-- The update's product: row b of the joined input against row h of W_u. -/
theorem prod_u_at (x0 : FVec Ideal S16384x128 .f32) (x1 : FVec Ideal S2x16384x512 .f32) (x7 : FVec Ideal S512x1152 .f32)
    (b : Fin 16384) (h : Fin 512) :
    val_main_v26 (F := Ideal) x0 x1 x7 (ix2 b h)
      = Cert.TreeCell.dot (Cert.TreeCell.xrow x0 x1 b) (fun κ => x7 (ix2 h κ)) := by
  rw [val_main_v26_apply]
  exact sum_is_dot x0 x1 b (fun κ => x7 (ix2 h κ)) (fun κ => lidx_main_v26 (ix2 b h) κ)
    (fun κ => val_main_v25 (F := Ideal) x7 (ridx_main_v26 (ix2 b h) κ))
    (fun κ => funext fun a => Fin.ext (by match a with | ⟨0, _⟩ => rfl | ⟨1, _⟩ => rfl))
    (fun κ => by
      rw [val_main_v25_apply]
      exact congrArg x7 (funext fun a => Fin.ext (by match a with | ⟨0, _⟩ => rfl | ⟨1, _⟩ => rfl)))

/-- Child k's forget product: row b of the joined input against row (k, h) of the forget maps. -/
theorem prod_f_at (x0 : FVec Ideal S16384x128 .f32) (x1 : FVec Ideal S2x16384x512 .f32)
    (x9 : FVec Ideal S512x128 .f32) (x10 : FVec Ideal S2x2x512x512 .f32)
    (b : Fin 16384) (k : Fin 2) (h : Fin 512) :
    val_main_v35 (F := Ideal) x0 x1 x9 x10 (ix3 b k h)
      = Cert.TreeCell.dot (Cert.TreeCell.xrow x0 x1 b) (Cert.TreeCell.frow x9 x10 k h) := by
  rw [val_main_v35_apply]
  exact sum_is_dot x0 x1 b (Cert.TreeCell.frow x9 x10 k h) (fun κ => lidx_main_v35 (ix3 b k h) κ)
    (fun κ => val_main_v34 (F := Ideal) x9 x10 (ridx_main_v35 (ix3 b k h) κ))
    (fun κ => funext fun a => Fin.ext (by match a with | ⟨0, _⟩ => rfl | ⟨1, _⟩ => rfl))
    (fun κ => by
      rw [← forget_map_at]
      exact congrArg (val_main_v34 (F := Ideal) x9 x10) (funext fun a => Fin.ext (by
        match a with | ⟨0, _⟩ => rfl | ⟨1, _⟩ => rfl | ⟨2, _⟩ => rfl)))

/-! ## The biases, spread over the batch -/

/-- The input gate's bias at (b, h) is its entry h. -/
theorem bias_i_at (x4 : FVec Ideal S512 .f32) (b : Fin 16384) (h : Fin 512) :
    val_main_v6 (F := Ideal) x4 (ix2 b h) = x4 (ix1 h) := by
  rw [val_main_v6_apply, val_main_v5_apply]
  exact congrArg x4 (funext fun a => Fin.ext (by match a with | ⟨0, _⟩ => rfl))

/-- The output gate's bias at (b, h) is its entry h. -/
theorem bias_o_at (x6 : FVec Ideal S512 .f32) (b : Fin 16384) (h : Fin 512) :
    val_main_v17 (F := Ideal) x6 (ix2 b h) = x6 (ix1 h) := by
  rw [val_main_v17_apply, val_main_v16_apply]
  exact congrArg x6 (funext fun a => Fin.ext (by match a with | ⟨0, _⟩ => rfl))

/-- The update's bias at (b, h) is its entry h. -/
theorem bias_u_at (x8 : FVec Ideal S512 .f32) (b : Fin 16384) (h : Fin 512) :
    val_main_v28 (F := Ideal) x8 (ix2 b h) = x8 (ix1 h) := by
  rw [val_main_v28_apply, val_main_v27_apply]
  exact congrArg x8 (funext fun a => Fin.ext (by match a with | ⟨0, _⟩ => rfl))

/-- The forget bias at (b, h) is its entry h. -/
theorem bias_f_at (x11 : FVec Ideal S512 .f32) (b : Fin 16384) (h : Fin 512) :
    val_main_v47 (F := Ideal) x11 (ix2 b h) = x11 (ix1 h) := by
  rw [val_main_v47_apply, val_main_v46_apply]
  exact congrArg x11 (funext fun a => Fin.ext (by match a with | ⟨0, _⟩ => rfl))

/-! ## The gates: one over one plus e to the minus z is the logistic function -/

/-- The input gate at (b, h). -/
theorem gate_i_at (x0 : FVec Ideal S16384x128 .f32) (x1 : FVec Ideal S2x16384x512 .f32) (x3 : FVec Ideal S512x1152 .f32)
    (x4 : FVec Ideal S512 .f32) (b : Fin 16384) (h : Fin 512) :
    val_main_v13 (F := Ideal) x0 x1 x3 x4 (ix2 b h)
      = Ideal.logistic (Cert.TreeCell.dot (Cert.TreeCell.xrow x0 x1 b) (fun κ => x3 (ix2 h κ)) + x4 (ix1 h)) := by
  rw [val_main_v13_apply, val_main_v12_apply, val_main_cst_0_apply, val_main_v11_apply, val_main_v10_apply,
    val_main_cst_apply, val_main_v9_apply, val_main_v8_apply, val_main_v7_apply, prod_i_at, bias_i_at]
  simp only [Ideal.ofBits_def, Ideal.hostDivf_def, Ideal.addf_def, Ideal.hostUnary_exp_def, Ideal.hostNegf_def,
    Ideal.negf_def, Cert.TreeCell.ofBits_one]
  exact Cert.TreeCell.logistic_spelt _

/-- The output gate at (b, h). -/
theorem gate_o_at (x0 : FVec Ideal S16384x128 .f32) (x1 : FVec Ideal S2x16384x512 .f32) (x5 : FVec Ideal S512x1152 .f32)
    (x6 : FVec Ideal S512 .f32) (b : Fin 16384) (h : Fin 512) :
    val_main_v24 (F := Ideal) x0 x1 x5 x6 (ix2 b h)
      = Ideal.logistic (Cert.TreeCell.dot (Cert.TreeCell.xrow x0 x1 b) (fun κ => x5 (ix2 h κ)) + x6 (ix1 h)) := by
  rw [val_main_v24_apply, val_main_v23_apply, val_main_cst_2_apply, val_main_v22_apply, val_main_v21_apply,
    val_main_cst_1_apply, val_main_v20_apply, val_main_v19_apply, val_main_v18_apply, prod_o_at, bias_o_at]
  simp only [Ideal.ofBits_def, Ideal.hostDivf_def, Ideal.addf_def, Ideal.hostUnary_exp_def, Ideal.hostNegf_def,
    Ideal.negf_def, Cert.TreeCell.ofBits_one]
  exact Cert.TreeCell.logistic_spelt _

/-- The update at (b, h). -/
theorem update_at (x0 : FVec Ideal S16384x128 .f32) (x1 : FVec Ideal S2x16384x512 .f32) (x7 : FVec Ideal S512x1152 .f32)
    (x8 : FVec Ideal S512 .f32) (b : Fin 16384) (h : Fin 512) :
    val_main_v30 (F := Ideal) x0 x1 x7 x8 (ix2 b h)
      = Ideal.tanh (Cert.TreeCell.dot (Cert.TreeCell.xrow x0 x1 b) (fun κ => x7 (ix2 h κ)) + x8 (ix1 h)) := by
  rw [val_main_v30_apply, val_main_v29_apply, prod_u_at, bias_u_at]
  simp only [Ideal.hostUnary_tanh_def, Ideal.addf_def]

/-- Child k's forget gate at (b, h): no bias inside the logistic function. -/
theorem gate_f_at (x0 : FVec Ideal S16384x128 .f32) (x1 : FVec Ideal S2x16384x512 .f32)
    (x9 : FVec Ideal S512x128 .f32) (x10 : FVec Ideal S2x2x512x512 .f32)
    (k : Fin 2) (b : Fin 16384) (h : Fin 512) :
    val_main_v42 (F := Ideal) x0 x1 x9 x10 (ix3 k b h)
      = Ideal.logistic (Cert.TreeCell.dot (Cert.TreeCell.xrow x0 x1 b) (Cert.TreeCell.frow x9 x10 k h)) := by
  have e : idx_main_v36 (ix3 k b h) = ix3 b k h :=
    funext fun a => Fin.ext (by match a with | ⟨0, _⟩ => rfl | ⟨1, _⟩ => rfl | ⟨2, _⟩ => rfl)
  rw [val_main_v42_apply, val_main_v41_apply, val_main_cst_4_apply, val_main_v40_apply, val_main_v39_apply,
    val_main_cst_3_apply, val_main_v38_apply, val_main_v37_apply, val_main_v36_apply, e, prod_f_at]
  simp only [Ideal.ofBits_def, Ideal.hostDivf_def, Ideal.addf_def, Ideal.hostUnary_exp_def, Ideal.hostNegf_def,
    Ideal.negf_def, Cert.TreeCell.ofBits_one]
  exact Cert.TreeCell.logistic_spelt _

/-! ## The two sums over the children: zero plus two terms -/

/-- The forget gates times the children's cells, summed over the two children. -/
theorem composed_at (x0 : FVec Ideal S16384x128 .f32) (x1 x2 : FVec Ideal S2x16384x512 .f32)
    (x9 : FVec Ideal S512x128 .f32) (x10 : FVec Ideal S2x2x512x512 .f32) (b : Fin 16384) (h : Fin 512) :
    val_main_v44 (F := Ideal) x0 x1 x2 x9 x10 (ix2 b h)
      = Ideal.logistic (Cert.TreeCell.dot (Cert.TreeCell.xrow x0 x1 b) (Cert.TreeCell.frow x9 x10 0 h)) * x2 (ix3 (0 : Fin 2) b h)
        + Ideal.logistic (Cert.TreeCell.dot (Cert.TreeCell.xrow x0 x1 b) (Cert.TreeCell.frow x9 x10 1 h)) * x2 (ix3 (1 : Fin 2) b h) := by
  have e : ∀ k : Fin 2, idx_main_v44 (ix2 b h) k = ix3 k b h := fun k =>
    funext fun a => Fin.ext (by match a with | ⟨0, _⟩ => rfl | ⟨1, _⟩ => rfl | ⟨2, _⟩ => rfl)
  rw [val_main_v44_apply, val_main_cst_5_apply, Fin.sum_univ_two, e, e, val_main_v43_apply, val_main_v43_apply,
    gate_f_at, gate_f_at]
  simp only [Ideal.ofBits_def, Ideal.mulf_def, Ideal.ofBits_zero_f32, zero_add]

/-- The children's cells, summed over the two children. -/
theorem child_sum_at (x2 : FVec Ideal S2x16384x512 .f32) (b : Fin 16384) (h : Fin 512) :
    val_main_v45 (F := Ideal) x2 (ix2 b h) = x2 (ix3 (0 : Fin 2) b h) + x2 (ix3 (1 : Fin 2) b h) := by
  have e : ∀ k : Fin 2, idx_main_v45 (ix2 b h) k = ix3 k b h := fun k =>
    funext fun a => Fin.ext (by match a with | ⟨0, _⟩ => rfl | ⟨1, _⟩ => rfl | ⟨2, _⟩ => rfl)
  rw [val_main_v45_apply, val_main_cst_6_apply, Fin.sum_univ_two, e, e]
  simp only [Ideal.ofBits_def, Ideal.ofBits_zero_f32, zero_add]

/-! ## The two results -/

/-- The next cell at (b, h), every stage replaced by its piece of the specification. -/
theorem next_at (x0 : FVec Ideal S16384x128 .f32) (x1 x2 : FVec Ideal S2x16384x512 .f32)
    (x3 : FVec Ideal S512x1152 .f32) (x4 : FVec Ideal S512 .f32) (x7 : FVec Ideal S512x1152 .f32) (x8 : FVec Ideal S512 .f32)
    (x9 : FVec Ideal S512x128 .f32) (x10 : FVec Ideal S2x2x512x512 .f32) (x11 : FVec Ideal S512 .f32)
    (b : Fin 16384) (h : Fin 512) :
    val_main_v51 (F := Ideal) x0 x1 x2 x3 x4 x7 x8 x9 x10 x11 (ix2 b h)
      = Cert.TreeCell.nextAt (Cert.TreeCell.xrow x0 x1 b) (fun κ => x3 (ix2 h κ)) (fun κ => x7 (ix2 h κ))
          (Cert.TreeCell.frow x9 x10 0 h) (Cert.TreeCell.frow x9 x10 1 h)
          (x4 (ix1 h)) (x8 (ix1 h)) (x11 (ix1 h)) (x2 (ix3 (0 : Fin 2) b h)) (x2 (ix3 (1 : Fin 2) b h)) := by
  rw [val_main_v51_apply, val_main_v50_apply, val_main_v49_apply, val_main_v48_apply,
    gate_i_at, update_at, composed_at, bias_f_at, child_sum_at]
  simp only [Ideal.addf_def, Ideal.mulf_def]
  rfl

theorem ref_next (x0 : FVec Ideal S16384x128 .f32) (x1 x2 : FVec Ideal S2x16384x512 .f32)
    (x3 : FVec Ideal S512x1152 .f32) (x4 : FVec Ideal S512 .f32) (x7 : FVec Ideal S512x1152 .f32) (x8 : FVec Ideal S512 .f32)
    (x9 : FVec Ideal S512x128 .f32) (x10 : FVec Ideal S2x2x512x512 .f32) (x11 : FVec Ideal S512 .f32) :
    val_main_v51 (F := Ideal) x0 x1 x2 x3 x4 x7 x8 x9 x10 x11 = Cert.TreeCell.next x0 x1 x2 x3 x7 x4 x8 x11 x9 x10 := by
  funext i
  obtain ⟨b, h, rfl⟩ : ∃ (b : Fin 16384) (h : Fin 512), i = ix2 b h := ⟨i 0, i 1, eq_ix2 i⟩
  exact next_at x0 x1 x2 x3 x4 x7 x8 x9 x10 x11 b h

theorem ref_out (x0 : FVec Ideal S16384x128 .f32) (x1 x2 : FVec Ideal S2x16384x512 .f32)
    (x3 : FVec Ideal S512x1152 .f32) (x4 : FVec Ideal S512 .f32) (x5 : FVec Ideal S512x1152 .f32) (x6 : FVec Ideal S512 .f32)
    (x7 : FVec Ideal S512x1152 .f32) (x8 : FVec Ideal S512 .f32)
    (x9 : FVec Ideal S512x128 .f32) (x10 : FVec Ideal S2x2x512x512 .f32) (x11 : FVec Ideal S512 .f32) :
    val_main_v53 (F := Ideal) x0 x1 x2 x3 x4 x5 x6 x7 x8 x9 x10 x11 = Cert.TreeCell.out x0 x1 x2 x3 x5 x7 x4 x6 x8 x11 x9 x10 := by
  funext i
  obtain ⟨b, h, rfl⟩ : ∃ (b : Fin 16384) (h : Fin 512), i = ix2 b h := ⟨i 0, i 1, eq_ix2 i⟩
  rw [val_main_v53_apply, val_main_v52_apply, gate_o_at, next_at]
  simp only [Ideal.hostUnary_tanh_def, Ideal.mulf_def]
  rfl

end Cert.ReferenceIdeal.RefValue
end
-- ==== Proof.lean ====
/-
  The N-ary tree-LSTM cell (arity 2) as a pipelined kernel against its plain array program.

  Both programs compute, for each batch row b and hidden unit h, with x the row's joined input
  [label(b) | h₀(b) | h₁(b)],

      next(b,h) = σ(x·W_i(h) + b_i(h)) · tanh(x·W_u(h) + b_u(h)) + (σ(x·F₀(h))·c₀(b,h) + σ(x·F₁(h))·c₁(b,h))
                    + φ(h) · (c₀(b,h) + c₁(b,h))
      out(b,h)  = tanh(σ(x·W_o(h) + b_o(h)) · next(b,h))

  where F_k(h) = [W_fl(h) | W_fs(k,0,h) | W_fs(k,1,h)] and σ is the logistic function (Proof/CellSpec.lean).

  The kernel cuts the batch into sixteen blocks of 1024 rows; at each block it joins the three row blocks, multiplies
  by the transposed weight arrays (which it holds whole), and stores the two results. The array program joins the whole
  batch, multiplies once per gate, spells the logistic function as 1 / (1 + exp(-z)) and sums the two children by a
  reduction. On the extended reals the logistic function is that quotient by definition, a product into a zero
  accumulator is the sum over the joined axis, and the children's sums differ only by a leading zero, so the two
  programs agree entry by entry on every input: no finiteness is used.

  Proof/BlockCell.lean reads the kernel's stored block at an entry, Proof/KernelWeights.lean and Proof/BlockReads.lean
  read the blocks it loads off the argument arrays, Proof/CellArrays.lean puts the sixteen blocks together, and
  Proof/RefIsCell.lean reads the array program's two results at an entry. The kernel's ideal text is the kernel's own
  text (no rewrite was applied), so there is nothing to preserve.
-/
import proofs.«119536_j84189948936634_1_alg».proof.Defs
import proofs.«119536_j84189948936634_1_alg».proof.Proof.Gen.Kernel
import proofs.«119536_j84189948936634_1_alg».proof.Proof.Gen.Kernel.Skeleton
import proofs.«119536_j84189948936634_1_alg».proof.Proof.Gen.Kernel.Launch
import proofs.«119536_j84189948936634_1_alg».proof.Proof.Gen.Kernel.Points
import proofs.«119536_j84189948936634_1_alg».proof.Proof.Gen.Kernel.Frame
import proofs.«119536_j84189948936634_1_alg».proof.Proof.Gen.KernelIdeal
import proofs.«119536_j84189948936634_1_alg».proof.Proof.Gen.KernelIdeal.Skeleton
import proofs.«119536_j84189948936634_1_alg».proof.Proof.Gen.KernelIdeal.Launch
import proofs.«119536_j84189948936634_1_alg».proof.Proof.Gen.KernelIdeal.Points
import proofs.«119536_j84189948936634_1_alg».proof.Proof.Gen.KernelIdeal.Frame
import proofs.«119536_j84189948936634_1_alg».proof.Proof.Gen.ReferenceIdeal
import proofs.«119536_j84189948936634_1_alg».proof.Proof.Gen.Pre_finite_inputs
import proofs.«119536_j84189948936634_1_alg».proof.Proof.Gen.KernelIdeal.Value
import proofs.«119536_j84189948936634_1_alg».proof.Proof.Gen.ReferenceIdeal.Run
import proofs.«119536_j84189948936634_1_alg».proof.Proof.Gen.ReferenceIdeal.Read
import proofs.«119536_j84189948936634_1_alg».proof.Proof.CellArrays
import proofs.«119536_j84189948936634_1_alg».proof.Proof.RefIsCell
import Idealize.ShloMosaic.Adequacy
import Idealize.ShloMosaic.Init

noncomputable section

namespace Cert.Proof

open Idealize.ShloMosaic Idealize.SL.Sem

/-- The kernel, word by word, runs to the end and leaves its arguments as they were. -/
theorem frame_k : Cert.frame_Kernel := fun m ρ _ => Cert.Kernel.Gen.frame m ρ

/-- So does the kernel over the extended reals. -/
theorem frame_ki : Cert.frame_KernelIdeal := fun m ρ _ => Cert.KernelIdeal.Gen.frame m ρ

/-- So does the array program: its run, the two results dropped. -/
theorem frame_ri : Cert.frame_ReferenceIdeal := fun m ρ _ =>
  (θ_run Cert.ReferenceIdeal.defs _ _).mono (fun _ h c => (h c).2.2) (Cert.ReferenceIdeal.Value.run (F := Ideal) m ρ)

/-- The kernel's ideal text is its own text. -/
theorem preserves : Cert.preserves_Kernel_KernelIdeal := trivial

/-- From memories that agree on the twelve arguments, both programs end with the cell's two arrays. -/
theorem algebraic : Cert.algebraic_KernelIdeal_ReferenceIdeal := by
  intro m ρ m' ρ' _ hagree
  refine ⟨fun c => Cert.KernelIdeal.Arrays.nextArr m c, fun c => Cert.KernelIdeal.Arrays.outArr m c,
    Cert.KernelIdeal.Arrays.run m ρ, ?_⟩
  refine (θ_run Cert.ReferenceIdeal.defs _ _).mono (fun _ h c => ⟨(h c).1.trans ?_, (h c).2.1.trans ?_, (h c).2.2⟩)
    (Cert.ReferenceIdeal.Value.run (F := Ideal) m' ρ')
  · obtain ⟨h0, h1, h2, h3, h4, h5, h6, h7, h8, h9, h10, h11⟩ := hagree c
    refine (Cert.ReferenceIdeal.Read.val_main_v51_eq _ _ _ _ _ _ _ _ _ _).trans ?_
    refine (Cert.ReferenceIdeal.RefValue.ref_next _ _ _ _ _ _ _ _ _ _).trans ?_
    rw [h0, h1, h2, h3, h4, h7, h8, h9, h10, h11]
  · obtain ⟨h0, h1, h2, h3, h4, h5, h6, h7, h8, h9, h10, h11⟩ := hagree c
    refine (Cert.ReferenceIdeal.Read.val_main_v53_eq _ _ _ _ _ _ _ _ _ _ _ _).trans ?_
    refine (Cert.ReferenceIdeal.RefValue.ref_out _ _ _ _ _ _ _ _ _ _ _ _).trans ?_
    rw [h0, h1, h2, h3, h4, h5, h6, h7, h8, h9, h10, h11]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
